-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1000x91 : Shape := ⟨3, ![16, 1000, 91]⟩
abbrev S16x1000x4 : Shape := ⟨3, ![16, 1000, 4]⟩
abbrev S2000 : Shape := ⟨1, ![2000]⟩
abbrev S2000x4 : Shape := ⟨2, ![2000, 4]⟩
abbrev S_ : Shape := ⟨0, ![]⟩

class Facts : Prop where
  bcast_S_S16x1000x91 : S_.BroadcastsInDim S16x1000x91 (![] : Fin 0 → Fin S16x1000x91.rank)
  reducesTo_S16x1000x91_S_d0_1_2 : S16x1000x91.ReducesTo [0, 1, 2] S_
  h_S_ : 0 < S_.numel
  bcast_S_S16x1000x4 : S_.BroadcastsInDim S16x1000x4 (![] : Fin 0 → Fin S16x1000x4.rank)
  reducesTo_S16x1000x4_S_d0_1_2 : S16x1000x4.ReducesTo [0, 1, 2] S_
  bcast_S_S2000x4 : S_.BroadcastsInDim S2000x4 (![] : Fin 0 → Fin S2000x4.rank)
  reducesTo_S2000x4_S_d0_1 : S2000x4.ReducesTo [0, 1] S_
  bcast_S_S2000 : S_.BroadcastsInDim S2000 (![] : Fin 0 → Fin S2000.rank)
  reducesTo_S2000_S_d0 : S2000.ReducesTo [0] S_

variable [Facts]

def fn_part1 {F : FTy → Type} [FloatOps F] (main_arg2 : IVec S2000 32) (main_v13 : IVec S_ 1) (main_v15 : IVec S2000 1) (main_c_5 : IVec S_ 1) : IVec S_ 1 :=
  let main_v16 : IVec S_ 1 := (fun x v => Host.reduce IntOp.andi x v reducesTo_S2000_S_d0 h_S_) main_v15 main_c_5
  let main_v17 : IVec S_ 1 := andi main_v13 main_v16
  let main_c_6 : IVec S_ 32 := constantI S_ 32 91#32
  let main_v18 : IVec S2000 32 := broadcastInDim S2000 ![] bcast_S_S2000 main_c_6
  let main_v19 : IVec S2000 1 := cmpi .slt main_arg2 main_v18
  let main_c_7 : IVec S_ 1 := constantI S_ 1 1#1
  let main_v20 : IVec S_ 1 := (fun x v => Host.reduce IntOp.andi x v reducesTo_S2000_S_d0 h_S_) main_v19 main_c_7
  let main_v21 : IVec S_ 1 := andi main_v17 main_v20
  main_v21

def fn {F : FTy → Type} [FloatOps F] (main_arg0 : FVec F S16x1000x91 .f32) (main_arg1 : FVec F S16x1000x4 .f32) (main_arg2 : IVec S2000 32) (main_arg3 : FVec F S2000x4 .f32) : IVec S_ 1 :=
  let main_v0 : FVec F S16x1000x91 .f32 := Host.absf main_arg0
  let main_cst : FVec F S_ .f32 := constant S_ .f32 0x7F800000#32
  let main_v1 : FVec F S16x1000x91 .f32 := broadcastInDim S16x1000x91 ![] bcast_S_S16x1000x91 main_cst
  let main_v2 : IVec S16x1000x91 1 := cmpf .olt main_v0 main_v1
  let main_c : IVec S_ 1 := constantI S_ 1 1#1
  let main_v3 : IVec S_ 1 := (fun x v => Host.reduce IntOp.andi x v reducesTo_S16x1000x91_S_d0_1_2 h_S_) main_v2 main_c
  let main_v4 : FVec F S16x1000x4 .f32 := Host.absf main_arg1
  let main_cst_0 : FVec F S_ .f32 := constant S_ .f32 0x7F800000#32
  let main_v5 : FVec F S16x1000x4 .f32 := broadcastInDim S16x1000x4 ![] bcast_S_S16x1000x4 main_cst_0
  let main_v6 : IVec S16x1000x4 1 := cmpf .olt main_v4 main_v5
  let main_c_1 : IVec S_ 1 := constantI S_ 1 1#1
  let main_v7 : IVec S_ 1 := (fun x v => Host.reduce IntOp.andi x v reducesTo_S16x1000x4_S_d0_1_2 h_S_) main_v6 main_c_1
  let main_v8 : IVec S_ 1 := andi main_v3 main_v7
  let main_v9 : FVec F S2000x4 .f32 := Host.absf main_arg3
  let main_cst_2 : FVec F S_ .f32 := constant S_ .f32 0x7F800000#32
  let main_v10 : FVec F S2000x4 .f32 := broadcastInDim S2000x4 ![] bcast_S_S2000x4 main_cst_2
  let main_v11 : IVec S2000x4 1 := cmpf .olt main_v9 main_v10
  let main_c_3 : IVec S_ 1 := constantI S_ 1 1#1
  let main_v12 : IVec S_ 1 := (fun x v => Host.reduce IntOp.andi x v reducesTo_S2000x4_S_d0_1 h_S_) main_v11 main_c_3
  let main_v13 : IVec S_ 1 := andi main_v8 main_v12
  let main_c_4 : IVec S_ 32 := constantI S_ 32 0#32
  let main_v14 : IVec S2000 32 := broadcastInDim S2000 ![] bcast_S_S2000 main_c_4
  let main_v15 : IVec S2000 1 := cmpi .sge main_arg2 main_v14
  let main_c_5 : IVec S_ 1 := constantI S_ 1 1#1
  fn_part1 (F := F) main_arg2 main_v13 main_v15 main_c_5
-- ==== Kernel.lean ====
abbrev S16x1000x91 : Shape := ⟨3, ![16, 1000, 91]⟩
abbrev S16x1000x4 : Shape := ⟨3, ![16, 1000, 4]⟩
abbrev S2000 : Shape := ⟨1, ![2000]⟩
abbrev S2000x4 : Shape := ⟨2, ![2000, 4]⟩
abbrev S4x1 : Shape := ⟨2, ![4, 1]⟩
abbrev S16000x91 : Shape := ⟨2, ![16000, 91]⟩
abbrev S16000x4 : Shape := ⟨2, ![16000, 4]⟩
abbrev S91 : Shape := ⟨1, ![91]⟩
abbrev S91x1 : Shape := ⟨2, ![91, 1]⟩
abbrev S1x2000 : Shape := ⟨2, ![1, 2000]⟩
abbrev S91x2000 : Shape := ⟨2, ![91, 2000]⟩
abbrev S4x2000 : Shape := ⟨2, ![4, 2000]⟩
abbrev S_ : Shape := ⟨0, ![]⟩
abbrev S91x2048 : Shape := ⟨2, ![91, 2048]⟩
abbrev S4x48 : Shape := ⟨2, ![4, 48]⟩
abbrev S4x2048 : Shape := ⟨2, ![4, 2048]⟩
abbrev S16128x91 : Shape := ⟨2, ![16128, 91]⟩
abbrev S16128x4 : Shape := ⟨2, ![16128, 4]⟩
abbrev S16128x2048 : Shape := ⟨2, ![16128, 2048]⟩
abbrev S256x91 : Shape := ⟨2, ![256, 91]⟩
abbrev S256x4 : Shape := ⟨2, ![256, 4]⟩
abbrev S256x2048 : Shape := ⟨2, ![256, 2048]⟩
abbrev S256x1 : Shape := ⟨2, ![256, 1]⟩
abbrev S91x512 : Shape := ⟨2, ![91, 512]⟩
abbrev S4x512 : Shape := ⟨2, ![4, 512]⟩
abbrev S256x512 : Shape := ⟨2, ![256, 512]⟩
abbrev S1x512 : Shape := ⟨2, ![1, 512]⟩
abbrev S16000x2000 : Shape := ⟨2, ![16000, 2000]⟩
abbrev S16x1000x2000 : Shape := ⟨3, ![16, 1000, 2000]⟩

abbrev nBuf : Space → Nat
  | .hbm => 29
  | .vmem => 8
  | .smem => 0
  | _ => 0

abbrev bufTy : (tb : Table) → Fin (tcTables nBuf tb) → BufTy
  | .hbm, ⟨0, _⟩ => ⟨S16x1000x91, .f32⟩
  | .hbm, ⟨1, _⟩ => ⟨S16x1000x4, .f32⟩
  | .hbm, ⟨2, _⟩ => ⟨S2000, .i32⟩
  | .hbm, ⟨3, _⟩ => ⟨S2000x4, .f32⟩
  | .hbm, ⟨4, _⟩ => ⟨S4x1, .f32⟩
  | .hbm, ⟨5, _⟩ => ⟨S16000x91, .f32⟩
  | .hbm, ⟨6, _⟩ => ⟨S16000x4, .f32⟩
  | .hbm, ⟨7, _⟩ => ⟨S91, .i32⟩
  | .hbm, ⟨8, _⟩ => ⟨S91x1, .i32⟩
  | .hbm, ⟨9, _⟩ => ⟨S1x2000, .i32⟩
  | .hbm, ⟨10, _⟩ => ⟨S91x2000, .i32⟩
  | .hbm, ⟨11, _⟩ => ⟨S91x2000, .i32⟩
  | .hbm, ⟨12, _⟩ => ⟨S91x2000, .i1⟩
  | .hbm, ⟨13, _⟩ => ⟨S91x2000, .f32⟩
  | .hbm, ⟨14, _⟩ => ⟨S4x2000, .f32⟩
  | .hbm, ⟨15, _⟩ => ⟨S_, .i32⟩
  | .hbm, ⟨16, _⟩ => ⟨S_, .f32⟩
  | .hbm, ⟨17, _⟩ => ⟨S91x2048, .f32⟩
  | .hbm, ⟨18, _⟩ => ⟨S4x48, .f32⟩
  | .hbm, ⟨19, _⟩ => ⟨S4x2048, .f32⟩
  | .hbm, ⟨20, _⟩ => ⟨S_, .i32⟩
  | .hbm, ⟨21, _⟩ => ⟨S_, .f32⟩
  | .hbm, ⟨22, _⟩ => ⟨S16128x91, .f32⟩
  | .hbm, ⟨23, _⟩ => ⟨S_, .i32⟩
  | .hbm, ⟨24, _⟩ => ⟨S_, .f32⟩
  | .hbm, ⟨25, _⟩ => ⟨S16128x4, .f32⟩
  | .hbm, ⟨26, _⟩ => ⟨S16128x2048, .f32⟩
  | .hbm, ⟨27, _⟩ => ⟨S16000x2000, .f32⟩
  | .hbm, ⟨28, _⟩ => ⟨S16x1000x2000, .f32⟩
  | .local _ .vmem, ⟨0, _⟩ => ⟨S256x91, .f32⟩
  | .local _ .vmem, ⟨1, _⟩ => ⟨S256x91, .f32⟩
  | .local _ .vmem, ⟨2, _⟩ => ⟨S256x4, .f32⟩
  | .local _ .vmem, ⟨3, _⟩ => ⟨S256x4, .f32⟩
  | .local _ .vmem, ⟨4, _⟩ => ⟨S91x2048, .f32⟩
  | .local _ .vmem, ⟨5, _⟩ => ⟨S4x2048, .f32⟩
  | .local _ .vmem, ⟨6, _⟩ => ⟨S256x2048, .f32⟩
  | .local _ .vmem, ⟨7, _⟩ => ⟨S256x2048, .f32⟩
  | _, _ => ⟨S16x1000x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_v13 : Ref sig .tc := ⟨.hbm, 22, rfl⟩
abbrev main_c_1 : Ref sig .tc := ⟨.hbm, 23, rfl⟩
abbrev main_call2_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![63], ![false]⟩

@[reducible] def k0_t1_loop : Scf.Loop 32 :=
  let c0_i32 : BitVec 32 := 0#32
  let c4_i32 : BitVec 32 := 4#32
  let v49 : BitVec 32 := Scalar.addi c0_i32 c4_i32
  let c1_i32 : BitVec 32 := 1#32
  ⟨c0_i32, v49, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v50 : BitVec 32 := Scalar.muli arg6 c512_i32
  v50
def k0_off1 (k0_t1 : Fin k0_t1_loop.trips) : Fin 2 → Nat :=
  let c0_16 : Index := 0#32
  let c0_i32 : BitVec 32 := 0#32
  let c1_i32 : BitVec 32 := 1#32
  let arg6 : BitVec 32 := Scf.iv c0_i32 c1_i32 k0_t1
  let c512_i32 : BitVec 32 := 512#32
  let v50 : BitVec 32 := Scalar.muli arg6 c512_i32
  let v51 : BitVec 32 := v50
  let v52 : Index := Scalar.indexCast v51
  ![0, v52.toNat]
def k0_off2 (k0_t1 : Fin k0_t1_loop.trips) : Fin 2 → Nat :=
  let c0_17 : Index := 0#32
  let c0_i32 : BitVec 32 := 0#32
  let c1_i32 : BitVec 32 := 1#32
  let arg6 : BitVec 32 := Scf.iv c0_i32 c1_i32 k0_t1
  let c512_i32 : BitVec 32 := 512#32
  let v50 : BitVec 32 := Scalar.muli arg6 c512_i32
  let v51 : BitVec 32 := v50
  let v55 : Index := Scalar.indexCast v51
  ![0, v55.toNat]
def k0_off3 (k0_t1 : Fin k0_t1_loop.trips) : Fin 2 → Nat :=
  let c0_31 : Index := 0#32
  let c0_i32 : BitVec 32 := 0#32
  let c1_i32 : BitVec 32 := 1#32
  let arg6 : BitVec 32 := Scf.iv c0_i32 c1_i32 k0_t1
  let c512_i32 : BitVec 32 := 512#32
  let v50 : BitVec 32 := Scalar.muli arg6 c512_i32
  let v51 : BitVec 32 := v50
  let v153 : Index := Scalar.indexCast v51
  ![0, v153.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S91x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x1000x91_S16000x91 : S16x1000x91.ShapeCasts S16000x91
  shapeCasts_S16x1000x4_S16000x4 : S16x1000x4.ShapeCasts S16000x4
  bcast_S91_S91x1_0 : S91.BroadcastsInDim S91x1 (![0] : Fin 1 → Fin S91x1.rank)
  bcast_S2000_S1x2000_1 : S2000.BroadcastsInDim S1x2000 (![1] : Fin 1 → Fin S1x2000.rank)
  bcast_S1x2000_S91x2000_0_1 : S1x2000.BroadcastsInDim S91x2000 (![0, 1] : Fin 2 → Fin S91x2000.rank)
  bcast_S91x1_S91x2000_0_1 : S91x1.BroadcastsInDim S91x2000 (![0, 1] : Fin 2 → Fin S91x2000.rank)
  transposes_S2000x4_S4x2000_1_0 : S2000x4.Transposes [1, 0] S4x2000
  pads_S91x2000_S91x2048_000_0480 : S91x2000.Pads (![0, 0] : Fin 2 → Nat) ![0, 48] ![0, 0] S91x2048
  h_S_ : 0 < S_.numel
  bcast_S4x1_S4x48_0_1 : S4x1.BroadcastsInDim S4x48 (![0, 1] : Fin 2 → Fin S4x48.rank)
  concatenates_S4x2000_S4x48_S4x2048_d1 : Shape.Concatenates [S4x2000, S4x48] S4x2048 1
  pads_S16000x91_S16128x91_01280_000 : S16000x91.Pads (![0, 0] : Fin 2 → Nat) ![128, 0] ![0, 0] S16128x91
  pads_S16000x4_S16128x4_01280_000 : S16000x4.Pads (![0, 0] : Fin 2 → Nat) ![128, 0] ![0, 0] S16128x4
  inb_S256x91_S256x91_0_0 : ∀ a, (![0, 0] : Fin 2 → Nat) a + S256x91.size a ≤ S256x91.size a
  h_S256x91 : 0 < S256x91.numel
  shapeCasts_S256x91_S256x91 : S256x91.ShapeCasts S256x91
  inb_S256x4_S256x4_0_0 : ∀ a, (![0, 0] : Fin 2 → Nat) a + S256x4.size a ≤ S256x4.size a
  h_S256x4 : 0 < S256x4.numel
  shapeCasts_S256x4_S256x4 : S256x4.ShapeCasts S256x4
  slices_S256x4_o0_0_S256x1 : S256x4.Slices ![0, 0] S256x1
  slices_S256x4_o0_1_S256x1 : S256x4.Slices ![0, 1] S256x1
  slices_S256x4_o0_2_S256x1 : S256x4.Slices ![0, 2] S256x1
  slices_S256x4_o0_3_S256x1 : S256x4.Slices ![0, 3] S256x1
  h_S91x512 : 0 < S91x512.numel
  shapeCasts_S91x512_S91x512 : S91x512.ShapeCasts S91x512
  h_S4x512 : 0 < S4x512.numel
  shapeCasts_S4x512_S4x512 : S4x512.ShapeCasts S4x512
  slices_S4x512_o0_0_S1x512 : S4x512.Slices ![0, 0] S1x512
  slices_S4x512_o1_0_S1x512 : S4x512.Slices ![1, 0] S1x512
  slices_S4x512_o2_0_S1x512 : S4x512.Slices ![2, 0] S1x512
  slices_S4x512_o3_0_S1x512 : S4x512.Slices ![3, 0] S1x512
  broadcasts_S256x1_S256x512 : S256x1.Broadcasts S256x512
  broadcasts_S1x512_S256x512 : S1x512.Broadcasts S256x512
  h_S256x512 : 0 < S256x512.numel
  slices_S16128x2048_S16000x2000_0_0 : S16128x2048.Slices ![0, 0] S16000x2000
  shapeCasts_S16000x2000_S16x1000x2000 : S16000x2000.ShapeCasts S16x1000x2000
  dot_S256x91_S91x512_S256x512_1_0_0_1_n_n_wf : DotDims.WF S256x91 S91x512 S256x512 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S91x512.size a ≤ S91x2048.size a
  k0_off2_inb : ∀ k0_t1 : Fin k0_t1_loop.trips, ∀ a, (k0_off2 k0_t1) a + S4x512.size a ≤ S4x2048.size a
  k0_off3_inb : ∀ k0_t1 : Fin k0_t1_loop.trips, ∀ a, (k0_off3 k0_t1) a + S256x512.size a ≤ S256x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x91.size a ≤ S16128x91.size a
  hwx0_0 : ∀ i : grid0.Coords, EltTy.bits .f32 = 32 ∨ (Rect.block (s := S16128x91) S256x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4.size a ≤ S16128x4.size a
  hwx0_1 : ∀ i : grid0.Coords, EltTy.bits .f32 = 32 ∨ (Rect.block (s := S16128x4) S256x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S91x2048.size a ≤ S91x2048.size a
  hwx0_2 : ∀ i : grid0.Coords, EltTy.bits .f32 = 32 ∨ (Rect.block (s := S91x2048) S91x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x2048.size a ≤ S4x2048.size a
  hwx0_3 : ∀ i : grid0.Coords, EltTy.bits .f32 = 32 ∨ (Rect.block (s := S4x2048) S4x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S16128x2048.size a
  hwx0_4 : ∀ i : grid0.Coords, EltTy.bits .f32 = 32 ∨ (Rect.block (s := S16128x2048) S256x2048.size (cc0_transform_4 i) (hinb0_4 i)).WholeWords (EltTy.packing .f32)

variable [Facts₀]

def dot_S256x91_S91x512_S256x512_1_0_0_1_n_n : DotDims S256x91 S91x512 S256x512 where
  lhsContracting := [1]
  rhsContracting := [0]
  lhsNonContracting := [0]
  rhsNonContracting := [1]
  lhsBatch := []
  rhsBatch := []
  wf := dot_S256x91_S91x512_S256x512_1_0_0_1_n_n_wf

abbrev win0_0 : Pipeline.Window sig grid0 :=
  Pipeline.Window.ofSpec (Memref.whole main_v13) S256x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S91x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1000x91 : Shape := ⟨3, ![16, 1000, 91]⟩
abbrev S16x1000x4 : Shape := ⟨3, ![16, 1000, 4]⟩
abbrev S2000 : Shape := ⟨1, ![2000]⟩
abbrev S2000x4 : Shape := ⟨2, ![2000, 4]⟩
abbrev S16000x91 : Shape := ⟨2, ![16000, 91]⟩
abbrev S_ : Shape := ⟨0, ![]⟩
abbrev S16000x4 : Shape := ⟨2, ![16000, 4]⟩
abbrev S2000x1 : Shape := ⟨2, ![2000, 1]⟩
abbrev S16000x2000 : Shape := ⟨2, ![16000, 2000]⟩
abbrev S16000x1x4 : Shape := ⟨3, ![16000, 1, 4]⟩
abbrev S1x2000x4 : Shape := ⟨3, ![1, 2000, 4]⟩
abbrev S16000x2000x4 : Shape := ⟨3, ![16000, 2000, 4]⟩
abbrev S16000x1 : Shape := ⟨2, ![16000, 1]⟩
abbrev S16000 : Shape := ⟨1, ![16000]⟩
abbrev S16000x2 : Shape := ⟨2, ![16000, 2]⟩
abbrev S16000x1x2 : Shape := ⟨3, ![16000, 1, 2]⟩
abbrev S2000x2 : Shape := ⟨2, ![2000, 2]⟩
abbrev S1x2000x2 : Shape := ⟨3, ![1, 2000, 2]⟩
abbrev S16000x2000x2 : Shape := ⟨3, ![16000, 2000, 2]⟩
abbrev S16000x2000x1 : Shape := ⟨3, ![16000, 2000, 1]⟩
abbrev S1x2000 : Shape := ⟨2, ![1, 2000]⟩
abbrev S16x1000x2000 : Shape := ⟨3, ![16, 1000, 2000]⟩

abbrev nBuf : Space → Nat
  | .hbm => 211
  | .vmem => 0
  | .smem => 0
  | _ => 0

abbrev hbmTy0_0 (i : Nat) : BufTy := match i % 128 with
  | 0 => ⟨S16x1000x91, .f32⟩
  | 1 => ⟨S16x1000x4, .f32⟩
  | 2 => ⟨S2000, .i32⟩
  | 3 => ⟨S2000x4, .f32⟩
  | 4 => ⟨S16000x91, .f32⟩
  | 5 => ⟨S16000x91, .f32⟩
  | 6 => ⟨S16000x91, .f32⟩
  | 7 => ⟨S_, .f32⟩
  | 8 => ⟨S16000x91, .f32⟩
  | 9 => ⟨S16000x91, .f32⟩
  | 10 => ⟨S_, .f32⟩
  | 11 => ⟨S16000x91, .f32⟩
  | 12 => ⟨S16000x91, .f32⟩
  | 13 => ⟨S16000x4, .f32⟩
  | 14 => ⟨S_, .i32⟩
  | 15 => ⟨S2000, .i32⟩
  | 16 => ⟨S2000, .i1⟩
  | 17 => ⟨S_, .i32⟩
  | 18 => ⟨S2000, .i32⟩
  | 19 => ⟨S2000, .i32⟩
  | 20 => ⟨S2000, .i32⟩
  | 21 => ⟨S2000x1, .i32⟩
  | 22 => ⟨S16000x2000, .f32⟩
  | 23 => ⟨S_, .f32⟩
  | 24 => ⟨S16000x2000, .f32⟩
  | 25 => ⟨S16000x2000, .f32⟩
  | 26 => ⟨S_, .f32⟩
  | 27 => ⟨S16000x2000, .f32⟩
  | 28 => ⟨S16000x2000, .f32⟩
  | 29 => ⟨S16000x2000, .f32⟩
  | 30 => ⟨S_, .f32⟩
  | 31 => ⟨S16000x2000, .f32⟩
  | 32 => ⟨S16000x2000, .f32⟩
  | 33 => ⟨S16000x2000, .f32⟩
  | 34 => ⟨S16000x2000, .f32⟩
  | 35 => ⟨S16000x2000, .f32⟩
  | 36 => ⟨S_, .f32⟩
  | 37 => ⟨S16000x2000, .f32⟩
  | 38 => ⟨S16000x2000, .f32⟩
  | 39 => ⟨S_, .f32⟩
  | 40 => ⟨S16000x2000, .f32⟩
  | 41 => ⟨S16000x2000, .f32⟩
  | 42 => ⟨S_, .f32⟩
  | 43 => ⟨S16000x2000, .f32⟩
  | 44 => ⟨S16000x2000, .f32⟩
  | 45 => ⟨S_, .f32⟩
  | 46 => ⟨S16000x2000, .f32⟩
  | 47 => ⟨S16000x2000, .f32⟩
  | 48 => ⟨S16000x2000, .f32⟩
  | 49 => ⟨S16000x2000, .f32⟩
  | 50 => ⟨S16000x2000, .f32⟩
  | 51 => ⟨S16000x2000, .f32⟩
  | 52 => ⟨S16000x1x4, .f32⟩
  | 53 => ⟨S1x2000x4, .f32⟩
  | 54 => ⟨S16000x2000x4, .f32⟩
  | 55 => ⟨S16000x2000x4, .f32⟩
  | 56 => ⟨S16000x2000x4, .f32⟩
  | 57 => ⟨S16000x2000x4, .f32⟩
  | 58 => ⟨S_, .f32⟩
  | 59 => ⟨S16000x2000, .f32⟩
  | 60 => ⟨S16000x1, .f32⟩
  | 61 => ⟨S16000, .f32⟩
  | 62 => ⟨S16000x1, .f32⟩
  | 63 => ⟨S16000, .f32⟩
  | 64 => ⟨S16000x1, .f32⟩
  | 65 => ⟨S16000, .f32⟩
  | 66 => ⟨S16000x1, .f32⟩
  | 67 => ⟨S16000, .f32⟩
  | 68 => ⟨S_, .f32⟩
  | 69 => ⟨S16000, .f32⟩
  | 70 => ⟨S16000, .f32⟩
  | 71 => ⟨S16000, .f32⟩
  | 72 => ⟨S_, .f32⟩
  | 73 => ⟨S16000, .f32⟩
  | 74 => ⟨S16000, .f32⟩
  | 75 => ⟨S16000, .f32⟩
  | 76 => ⟨S_, .f32⟩
  | 77 => ⟨S16000, .f32⟩
  | 78 => ⟨S16000, .f32⟩
  | 79 => ⟨S16000, .f32⟩
  | 80 => ⟨S_, .f32⟩
  | 81 => ⟨S16000, .f32⟩
  | 82 => ⟨S16000, .f32⟩
  | 83 => ⟨S16000, .f32⟩
  | 84 => ⟨S16000x1, .f32⟩
  | 85 => ⟨S16000x1, .f32⟩
  | 86 => ⟨S16000x1, .f32⟩
  | 87 => ⟨S16000x1, .f32⟩
  | 88 => ⟨S16000x4, .f32⟩
  | 89 => ⟨S2000x1, .f32⟩
  | 90 => ⟨S2000, .f32⟩
  | 91 => ⟨S2000x1, .f32⟩
  | 92 => ⟨S2000, .f32⟩
  | 93 => ⟨S2000x1, .f32⟩
  | 94 => ⟨S2000, .f32⟩
  | 95 => ⟨S2000x1, .f32⟩
  | 96 => ⟨S2000, .f32⟩
  | 97 => ⟨S_, .f32⟩
  | 98 => ⟨S2000, .f32⟩
  | 99 => ⟨S2000, .f32⟩
  | 100 => ⟨S2000, .f32⟩
  | 101 => ⟨S_, .f32⟩
  | 102 => ⟨S2000, .f32⟩
  | 103 => ⟨S2000, .f32⟩
  | 104 => ⟨S2000, .f32⟩
  | 105 => ⟨S_, .f32⟩
  | 106 => ⟨S2000, .f32⟩
  | 107 => ⟨S2000, .f32⟩
  | 108 => ⟨S2000, .f32⟩
  | 109 => ⟨S_, .f32⟩
  | 110 => ⟨S2000, .f32⟩
  | 111 => ⟨S2000, .f32⟩
  | 112 => ⟨S2000, .f32⟩
  | 113 => ⟨S2000x1, .f32⟩
  | 114 => ⟨S2000x1, .f32⟩
  | 115 => ⟨S2000x1, .f32⟩
  | 116 => ⟨S2000x1, .f32⟩
  | 117 => ⟨S2000x4, .f32⟩
  | 118 => ⟨S16000x1, .f32⟩
  | 119 => ⟨S16000, .f32⟩
  | 120 => ⟨S16000x1, .f32⟩
  | 121 => ⟨S16000, .f32⟩
  | 122 => ⟨S16000, .f32⟩
  | 123 => ⟨S16000x1, .f32⟩
  | 124 => ⟨S16000, .f32⟩
  | 125 => ⟨S16000x1, .f32⟩
  | 126 => ⟨S16000, .f32⟩
  | 127 => ⟨S16000, .f32⟩
  | _ => ⟨S16x1000x91, .f32⟩

abbrev hbmTy0_1 (i : Nat) : BufTy := match i % 128 with
  | 0 => ⟨S16000, .f32⟩
  | 1 => ⟨S2000x1, .f32⟩
  | 2 => ⟨S2000, .f32⟩
  | 3 => ⟨S2000x1, .f32⟩
  | 4 => ⟨S2000, .f32⟩
  | 5 => ⟨S2000, .f32⟩
  | 6 => ⟨S2000x1, .f32⟩
  | 7 => ⟨S2000, .f32⟩
  | 8 => ⟨S2000x1, .f32⟩
  | 9 => ⟨S2000, .f32⟩
  | 10 => ⟨S2000, .f32⟩
  | 11 => ⟨S2000, .f32⟩
  | 12 => ⟨S16000x2, .f32⟩
  | 13 => ⟨S16000x1x2, .f32⟩
  | 14 => ⟨S2000x2, .f32⟩
  | 15 => ⟨S1x2000x2, .f32⟩
  | 16 => ⟨S16000x2000x2, .f32⟩
  | 17 => ⟨S16000x2000x2, .f32⟩
  | 18 => ⟨S16000x2000x2, .f32⟩
  | 19 => ⟨S16000x2, .f32⟩
  | 20 => ⟨S16000x1x2, .f32⟩
  | 21 => ⟨S2000x2, .f32⟩
  | 22 => ⟨S1x2000x2, .f32⟩
  | 23 => ⟨S16000x2000x2, .f32⟩
  | 24 => ⟨S16000x2000x2, .f32⟩
  | 25 => ⟨S16000x2000x2, .f32⟩
  | 26 => ⟨S16000x2000x2, .f32⟩
  | 27 => ⟨S_, .f32⟩
  | 28 => ⟨S_, .f32⟩
  | 29 => ⟨S16000x2000x2, .f32⟩
  | 30 => ⟨S16000x2000x2, .f32⟩
  | 31 => ⟨S16000x2000x1, .f32⟩
  | 32 => ⟨S16000x2000, .f32⟩
  | 33 => ⟨S16000x2000x1, .f32⟩
  | 34 => ⟨S16000x2000, .f32⟩
  | 35 => ⟨S16000x2000, .f32⟩
  | 36 => ⟨S16000x1, .f32⟩
  | 37 => ⟨S1x2000, .f32⟩
  | 38 => ⟨S16000x2000, .f32⟩
  | 39 => ⟨S16000x2000, .f32⟩
  | 40 => ⟨S16000x2000, .f32⟩
  | 41 => ⟨S16000x2000, .f32⟩
  | 42 => ⟨S16000x2000, .f32⟩
  | 43 => ⟨S16000x2, .f32⟩
  | 44 => ⟨S16000x1x2, .f32⟩
  | 45 => ⟨S2000x2, .f32⟩
  | 46 => ⟨S1x2000x2, .f32⟩
  | 47 => ⟨S16000x2000x2, .f32⟩
  | 48 => ⟨S16000x2000x2, .f32⟩
  | 49 => ⟨S16000x2000x2, .f32⟩
  | 50 => ⟨S16000x2, .f32⟩
  | 51 => ⟨S16000x1x2, .f32⟩
  | 52 => ⟨S2000x2, .f32⟩
  | 53 => ⟨S1x2000x2, .f32⟩
  | 54 => ⟨S16000x2000x2, .f32⟩
  | 55 => ⟨S16000x2000x2, .f32⟩
  | 56 => ⟨S16000x2000x2, .f32⟩
  | 57 => ⟨S16000x2000x2, .f32⟩
  | 58 => ⟨S_, .f32⟩
  | 59 => ⟨S_, .f32⟩
  | 60 => ⟨S16000x2000x2, .f32⟩
  | 61 => ⟨S16000x2000x2, .f32⟩
  | 62 => ⟨S16000x2000x1, .f32⟩
  | 63 => ⟨S16000x2000, .f32⟩
  | 64 => ⟨S16000x2000x1, .f32⟩
  | 65 => ⟨S16000x2000, .f32⟩
  | 66 => ⟨S16000x2000, .f32⟩
  | 67 => ⟨S16000x2000, .f32⟩
  | 68 => ⟨S16000x2000, .f32⟩
  | 69 => ⟨S16000x2000, .f32⟩
  | 70 => ⟨S16000x2000, .f32⟩
  | 71 => ⟨S_, .f32⟩
  | 72 => ⟨S16000x2000, .f32⟩
  | 73 => ⟨S16000x2000, .f32⟩
  | 74 => ⟨S_, .f32⟩
  | 75 => ⟨S16000x2000, .f32⟩
  | 76 => ⟨S16000x2000, .f32⟩
  | 77 => ⟨S16000x2000, .f32⟩
  | 78 => ⟨S_, .f32⟩
  | 79 => ⟨S16000x2000, .f32⟩
  | 80 => ⟨S16000x2000, .f32⟩
  | 81 => ⟨S16000x2000, .f32⟩
  | 82 => ⟨S16x1000x2000, .f32⟩
  | _ => ⟨S16x1000x91, .f32⟩

abbrev hbmTy (i : Nat) : BufTy := match i / 128 with
  | 0 => hbmTy0_0 i
  | 1 => hbmTy0_1 i
  | _ => ⟨S16x1000x91, .f32⟩

abbrev bufTy : (tb : Table) → Fin (tcTables nBuf tb) → BufTy
  | .hbm, ⟨i, _⟩ => hbmTy i
  | _, _ => ⟨S16x1000x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_13 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_14 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_15 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_16 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_17 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_cst_18 : Ref sig .tc := ⟨.hbm, 155, rfl⟩
abbrev main_call0_v0 : Ref sig .tc := ⟨.hbm, 156, rfl⟩
abbrev main_call0_v1 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_cst_19 : Ref sig .tc := ⟨.hbm, 186, rfl⟩
abbrev main_call1_v0 : Ref sig .tc := ⟨.hbm, 187, rfl⟩
abbrev main_call1_v1 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_cst_20 : Ref sig .tc := ⟨.hbm, 199, rfl⟩
abbrev main_v169 : Ref sig .tc := ⟨.hbm, 200, rfl⟩
abbrev main_v170 : Ref sig .tc := ⟨.hbm, 201, rfl⟩
abbrev main_cst_21 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_cst_22 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩

abbrev nD : Nat := 1
abbrev τ : Topo := Topo.v7x

variable {F : FTy → Type} [FloatOps F]

class Facts₀ : Prop where
  shapeCasts_S16x1000x91_S16000x91 : S16x1000x91.ShapeCasts S16000x91
  bcast_S_S16000x91 : S_.BroadcastsInDim S16000x91 (![] : Fin 0 → Fin S16000x91.rank)
  shapeCasts_S16x1000x4_S16000x4 : S16x1000x4.ShapeCasts S16000x4
  bcast_S_S2000 : S_.BroadcastsInDim S2000 (![] : Fin 0 → Fin S2000.rank)
  bcast_S2000_S2000x1_0 : S2000.BroadcastsInDim S2000x1 (![0] : Fin 1 → Fin S2000x1.rank)
  bcast_S_S16000x2000 : S_.BroadcastsInDim S16000x2000 (![] : Fin 0 → Fin S16000x2000.rank)
  bcast_S16000x4_S16000x1x4_0_2 : S16000x4.BroadcastsInDim S16000x1x4 (![0, 2] : Fin 2 → Fin S16000x1x4.rank)
  bcast_S2000x4_S1x2000x4_1_2 : S2000x4.BroadcastsInDim S1x2000x4 (![1, 2] : Fin 2 → Fin S1x2000x4.rank)
  bcast_S16000x1x4_S16000x2000x4_0_1_2 : S16000x1x4.BroadcastsInDim S16000x2000x4 (![0, 1, 2] : Fin 3 → Fin S16000x2000x4.rank)
  bcast_S1x2000x4_S16000x2000x4_0_1_2 : S1x2000x4.BroadcastsInDim S16000x2000x4 (![0, 1, 2] : Fin 3 → Fin S16000x2000x4.rank)
  reducesTo_S16000x2000x4_S16000x2000_d2 : S16000x2000x4.ReducesTo [2] S16000x2000
  h_S_ : 0 < S_.numel
  slices_S16000x4_S16000x1_0_0 : S16000x4.Slices ![0, 0] S16000x1
  shapeCasts_S16000x1_S16000 : S16000x1.ShapeCasts S16000
  slices_S16000x4_S16000x1_0_1 : S16000x4.Slices ![0, 1] S16000x1
  slices_S16000x4_S16000x1_0_2 : S16000x4.Slices ![0, 2] S16000x1
  slices_S16000x4_S16000x1_0_3 : S16000x4.Slices ![0, 3] S16000x1
  bcast_S_S16000 : S_.BroadcastsInDim S16000 (![] : Fin 0 → Fin S16000.rank)
  bcast_S16000_S16000x1_0 : S16000.BroadcastsInDim S16000x1 (![0] : Fin 1 → Fin S16000x1.rank)
  concatenates_S16000x1_S16000x1_S16000x1_S16000x1_S16000x4_d1 : Shape.Concatenates [S16000x1, S16000x1, S16000x1, S16000x1] S16000x4 1
  slices_S2000x4_S2000x1_0_0 : S2000x4.Slices ![0, 0] S2000x1
  shapeCasts_S2000x1_S2000 : S2000x1.ShapeCasts S2000
  slices_S2000x4_S2000x1_0_1 : S2000x4.Slices ![0, 1] S2000x1
  slices_S2000x4_S2000x1_0_2 : S2000x4.Slices ![0, 2] S2000x1
  slices_S2000x4_S2000x1_0_3 : S2000x4.Slices ![0, 3] S2000x1
  concatenates_S2000x1_S2000x1_S2000x1_S2000x1_S2000x4_d1 : Shape.Concatenates [S2000x1, S2000x1, S2000x1, S2000x1] S2000x4 1
  slices_S16000x4_S16000x2_0_0 : S16000x4.Slices ![0, 0] S16000x2
  bcast_S16000x2_S16000x1x2_0_2 : S16000x2.BroadcastsInDim S16000x1x2 (![0, 2] : Fin 2 → Fin S16000x1x2.rank)
  slices_S2000x4_S2000x2_0_0 : S2000x4.Slices ![0, 0] S2000x2
  bcast_S2000x2_S1x2000x2_1_2 : S2000x2.BroadcastsInDim S1x2000x2 (![1, 2] : Fin 2 → Fin S1x2000x2.rank)
  bcast_S16000x1x2_S16000x2000x2_0_1_2 : S16000x1x2.BroadcastsInDim S16000x2000x2 (![0, 1, 2] : Fin 3 → Fin S16000x2000x2.rank)
  bcast_S1x2000x2_S16000x2000x2_0_1_2 : S1x2000x2.BroadcastsInDim S16000x2000x2 (![0, 1, 2] : Fin 3 → Fin S16000x2000x2.rank)
  slices_S16000x4_S16000x2_0_2 : S16000x4.Slices ![0, 2] S16000x2
  slices_S2000x4_S2000x2_0_2 : S2000x4.Slices ![0, 2] S2000x2
  bcast_S_S16000x2000x2 : S_.BroadcastsInDim S16000x2000x2 (![] : Fin 0 → Fin S16000x2000x2.rank)
  slices_S16000x2000x2_S16000x2000x1_0_0_0 : S16000x2000x2.Slices ![0, 0, 0] S16000x2000x1
  shapeCasts_S16000x2000x1_S16000x2000 : S16000x2000x1.ShapeCasts S16000x2000
  slices_S16000x2000x2_S16000x2000x1_0_0_1 : S16000x2000x2.Slices ![0, 0, 1] S16000x2000x1
  bcast_S2000_S1x2000_1 : S2000.BroadcastsInDim S1x2000 (![1] : Fin 1 → Fin S1x2000.rank)
  bcast_S16000x1_S16000x2000_0_1 : S16000x1.BroadcastsInDim S16000x2000 (![0, 1] : Fin 2 → Fin S16000x2000.rank)
  bcast_S1x2000_S16000x2000_0_1 : S1x2000.BroadcastsInDim S16000x2000 (![0, 1] : Fin 2 → Fin S16000x2000.rank)
  shapeCasts_S16000x2000_S16x1000x2000 : S16000x2000.ShapeCasts S16x1000x2000
  gather_S16000x91_S2000x1_S16000x2000_0_1_n_n_1_1_160001_wf : GatherDims.WF S16000x91 S2000x1 S16000x2000 [0] [1] [] [1] [] 1 ![16000, 1]

variable [Facts₀]

def gather_S16000x91_S2000x1_S16000x2000_0_1_n_n_1_1_160001 : GatherDims S16000x91 S2000x1 S16000x2000 where
  offsetDims := [0]
  collapsedSliceDims := [1]
  operandBatchingDims := []
  startIndicesBatchingDims := []
  startIndexMap := [1]
  indexVectorDim := 1
  sliceSizes := ![16000, 1]
  wf := gather_S16000x91_S2000x1_S16000x2000_0_1_n_n_1_1_160001_wf

class Facts : Prop extends Facts₀ where

variable [Facts]
-- ==== Proof.PreIds.lean ====
/-
  The precondition read at the target ids: every id is a class in `[0, 91)`.
-/
import proofs.«411175_j78245714198741_3_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Ids

open Cert.Pre_finite_inputs Idealize.ShloMosaic Idealize.ShloMosaic.ValueIdx

/-- The scalar shape has exactly one index. -/
instance subsingleton_scalar_idx : Subsingleton S_.Idx := ⟨fun a b => funext fun d => d.elim0⟩

/-- Where the printed precondition is all ones, every target id is at least 0 and less than 91 as a signed word. -/
theorem ids_of_pre {F : FTy → Type} [FloatOps F] (a0 : FVec F S16x1000x91 .f32) (a1 : FVec F S16x1000x4 .f32)
    (a2 : IVec S2000 32) (a3 : FVec F S2000x4 .f32)
    (h : Cert.Pre_finite_inputs.fn (F := F) a0 a1 a2 a3 = fun _ => 1#1) (t : Fin 2000) :
    0 ≤ (a2 (ix1 t)).toInt ∧ (a2 (ix1 t)).toInt < 91 := by
  -- the predicate at its one index: a conjunction of five "all"s, the last two over the ids
  have e := congrFun h ix0
  dsimp only [fn, fn_part1] at e
  -- the outer two conjunctions, read at that index
  have e2 := IntOp.andi_eq_one.1 e
  have e1 := IntOp.andi_eq_one.1 e2.1
  -- an "all" that is one has a one at every id
  have g0 := Host.reduce_andi_all _ _ _ _ _ e1.2 (ix1 t)
  have g91 := Host.reduce_andi_all _ _ _ _ _ e2.2 (ix1 t)
  -- the two comparisons at id `t`: against the broadcast constants 0 and 91, signed
  have c0 : (0#32).toInt ≤ (a2 (ix1 t)).toInt := IntOp.cmpi_sge.1 g0
  have c91 : (a2 (ix1 t)).toInt < (91#32).toInt := IntOp.cmpi_slt.1 g91
  have z0 : (0#32).toInt = 0 := by decide
  have z91 : (91#32).toInt = 91 := by decide
  rw [z0] at c0
  rw [z91] at c91
  exact ⟨c0, c91⟩

end Cert.Pre_finite_inputs.Ids

end
-- ==== Proof.Spec.lean ====
/-
  The matching cost as ONE function of the four argument arrays, and the scalar laws that join the two programs.

  For a query row `n` (a prediction: 91 class logits, a box `(cx, cy, w, h)`) and a target `t` (a class id, a box) the cost is
      1 · L1(box_n, box_t) + 1 · focal(σ(logit[n, id_t])) + 1 · (0 − GIoU(box_n, box_t)),
  where σ is the logistic function, `focal p = ¼ (1 − p)² (0 − log (p + ε)) − ¾ p² (0 − log1p ((0 − p) + ε))`, L1 is the sum of the
  four absolute coordinate differences and GIoU is the generalized intersection-over-union of the two boxes' corner forms.
  Every float literal stays the extended real its word denotes; only `0`, `1` and `2` are evaluated, where a law needs them.
-/
import Idealize.ShloMosaic.PureOps.Ideal
import Idealize.ShloMosaic.PureOps.Ideal.Laws
import Idealize.ShloMosaic.Lib.ValueIdx

noncomputable section

namespace Cert.MatchCost

open Idealize.ShloMosaic Idealize.ShloMosaic.ValueIdx
open scoped BigOperators

/-! ## The float words of the two programs, as the extended reals they denote -/

abbrev f0 : EReal := Ideal.ofBits .f32 0x00000000#32
abbrev f1 : EReal := Ideal.ofBits .f32 0x3F800000#32
abbrev f2 : EReal := Ideal.ofBits .f32 0x40000000#32
abbrev fHalf : EReal := Ideal.ofBits .f32 0x3F000000#32
abbrev fQuarter : EReal := Ideal.ofBits .f32 0x3E800000#32
abbrev f34 : EReal := Ideal.ofBits .f32 0x3F400000#32
abbrev fEps : EReal := Ideal.ofBits .f32 0x322BCC77#32

theorem f0_eq : f0 = 0 := Ideal.ofBits_zero_f32
theorem f1_eq : f1 = 1 := by
  simp [f1, Ideal.ofBits, Ideal.ieee, -EReal.coe_mul]; norm_num
theorem f2_eq : f2 = ((2 : ℝ) : EReal) := by
  simp [f2, Ideal.ofBits, Ideal.ieee, -EReal.coe_mul]; norm_num

/-! ## The scalar pieces -/

/-- The focal class cost of a probability `p`: squares as products, a negation as `0 − x`. -/
def focal (p : EReal) : EReal :=
  fQuarter * ((f1 - p) * (f1 - p)) * (f0 - Ideal.log (p + fEps)) - f34 * (p * p) * (f0 - Ideal.log1p ((f0 - p) + fEps))

/-- The absolute value on the extended reals. -/
def absE (x : EReal) : EReal := max x (-x)

/-- The L1 distance of two boxes' four coordinates, summed first to last. -/
def l1 (b t : Fin 4 → EReal) : EReal :=
  ((absE (b 0 - t 0) + absE (b 1 - t 1)) + absE (b 2 - t 2)) + absE (b 3 - t 3)

/-- A box's low and high corner along one axis, from its centre `c` and extent `w`. -/
def lo (c w : EReal) : EReal := c - fHalf * w
def hi (c w : EReal) : EReal := c + fHalf * w

/-- The clipped overlap of two intervals `[a0, a1]`, `[b0, b1]`, and the clipped extent of their hull. -/
def ovl (a0 a1 b0 b1 : EReal) : EReal := max f0 (min a1 b1 - max a0 b0)
def hull (a0 a1 b0 b1 : EReal) : EReal := max f0 (max a1 b1 - min a0 b0)

/-- Generalized IoU of two boxes given by their corners `(x0, y0, x1, y1)`. -/
def giouC (px0 py0 px1 py1 tx0 ty0 tx1 ty1 : EReal) : EReal :=
  Ideal.div (ovl px0 px1 tx0 tx1 * ovl py0 py1 ty0 ty1)
      (((px1 - px0) * (py1 - py0) + (tx1 - tx0) * (ty1 - ty0)) - ovl px0 px1 tx0 tx1 * ovl py0 py1 ty0 ty1)
    - Ideal.div (hull px0 px1 tx0 tx1 * hull py0 py1 ty0 ty1
          - (((px1 - px0) * (py1 - py0) + (tx1 - tx0) * (ty1 - ty0)) - ovl px0 px1 tx0 tx1 * ovl py0 py1 ty0 ty1))
        (hull px0 px1 tx0 tx1 * hull py0 py1 ty0 ty1)

/-- Generalized IoU of two boxes given as `(cx, cy, w, h)`. -/
def giou (b t : Fin 4 → EReal) : EReal :=
  giouC (lo (b 0) (b 2)) (lo (b 1) (b 3)) (hi (b 0) (b 2)) (hi (b 1) (b 3))
    (lo (t 0) (t 2)) (lo (t 1) (t 3)) (hi (t 0) (t 2)) (hi (t 1) (t 3))

/-- The cost of one (query, target) pair from its class term `cls` and the two boxes. -/
def cost (cls : EReal) (b t : Fin 4 → EReal) : EReal :=
  (f1 * l1 b t + f1 * cls) + f1 * (f0 - giou b t)

/-! ## The whole-array functions -/

/-- The class a target id selects: the id itself when it is in `[0, 91)`. -/
def clsOf (id : BitVec 32) : Fin 91 := ⟨min id.toInt.toNat 90, by omega⟩

/-- THE RESULT over the flattened queries: entry `(n, t)` is the cost of query row `n` against target `t`. -/
def G2 (lg : (⟨2, ![16000, 91]⟩ : Shape).Idx → EReal) (bx : (⟨2, ![16000, 4]⟩ : Shape).Idx → EReal)
    (ids : (⟨1, ![2000]⟩ : Shape).Idx → BitVec 32) (tb : (⟨2, ![2000, 4]⟩ : Shape).Idx → EReal) :
    (⟨2, ![16000, 2000]⟩ : Shape).Idx → EReal :=
  fun j => cost (focal (Ideal.logistic (lg (ix2 (j 0 : Fin 16000) (clsOf (ids (ix1 (j 1 : Fin 2000))))))))
    (fun k => bx (ix2 (j 0 : Fin 16000) k)) (fun k => tb (ix2 (j 1 : Fin 2000) k))

/-- What the tiled program computes on its PADDED arrays: the class term as the product of the row of per-class focal
    costs with a column of the selection table. -/
def GP (a : (⟨2, ![16128, 91]⟩ : Shape).Idx → EReal) (bx : (⟨2, ![16128, 4]⟩ : Shape).Idx → EReal)
    (oh : (⟨2, ![91, 2048]⟩ : Shape).Idx → EReal) (tg : (⟨2, ![4, 2048]⟩ : Shape).Idx → EReal) :
    (⟨2, ![16128, 2048]⟩ : Shape).Idx → EReal :=
  fun j => cost (∑ c : Fin 91, focal (Ideal.logistic (a (ix2 (j 0 : Fin 16128) c))) * oh (ix2 c (j 1 : Fin 2048)))
    (fun k => bx (ix2 (j 0 : Fin 16128) k)) (fun k => tg (ix2 k (j 1 : Fin 2048)))

/-! ## The laws between the two spellings -/

/-- The logistic function always answers a real number (`0` at `−∞`, `1` at `+∞`). -/
theorem logistic_real (x : EReal) : ∃ r : ℝ, Ideal.logistic x = (r : EReal) := by
  induction x using EReal.rec with
  | bot => exact ⟨0, by simp⟩
  | coe r => exact ⟨_, Ideal.logistic_coe r⟩
  | top => exact ⟨1, by simp⟩

/-- The reference spells the logistic function as `1 / (1 + exp (−x))` with the word `1.0`. -/
theorem logistic_ref (x : EReal) : Ideal.div f1 (f1 + Ideal.exp (-x)) = Ideal.logistic x := by
  rw [f1_eq]; rfl

/-- A real to the power `2.0` is its square. -/
theorem pow_two (r : ℝ) : Ideal.pow (r : EReal) f2 = (r : EReal) * (r : EReal) := by
  rw [f2_eq, Ideal.pow_coe_coe, ← EReal.coe_mul]
  congr 1
  show r ^ (2 : ℝ) = r * r
  rw [Real.rpow_two, sq]

/-- The reference's negation is the kernel's `0 − x`. -/
theorem neg_ref (x : EReal) : -x = f0 - x := by
  rw [f0_eq, zero_sub]

/-- The reference's focal cost (powers `2.0`, negations) at a logistic value is `focal`. -/
theorem focal_ref (x : EReal) :
    fQuarter * Ideal.pow (f1 - Ideal.logistic x) f2 * (-(Ideal.log (Ideal.logistic x + fEps)))
      - f34 * Ideal.pow (Ideal.logistic x) f2 * (-(Ideal.log1p (-(Ideal.logistic x) + fEps)))
    = focal (Ideal.logistic x) := by
  obtain ⟨r, hr⟩ := logistic_real x
  have h1 : f1 - (r : EReal) = ((1 - r : ℝ) : EReal) := by rw [f1_eq, ← EReal.coe_one, ← EReal.coe_sub]
  rw [hr, h1, pow_two, pow_two, ← h1, neg_ref (Ideal.log _), neg_ref (Ideal.log1p _), neg_ref (r : EReal)]
  rfl

/-- The reference's L1: the host sum of the four absolute differences from the word `0.0`. -/
theorem l1_ref (b t : Fin 4 → EReal) : f0 + ∑ k : Fin 4, absE (b k - t k) = l1 b t := by
  rw [f0_eq, zero_add, Fin.sum_univ_four]; rfl

/-- A row times a 0/1 column that is `1` at `k` only is the row's entry at `k`. -/
theorem onehot_sum (f : Fin 91 → EReal) (k : Fin 91) :
    ∑ c : Fin 91, f c * (if c = k then (1 : EReal) else 0) = f k := by
  rw [Finset.sum_eq_single k]
  · rw [if_pos rfl, mul_one]
  · intro c _ hc; rw [if_neg hc, mul_zero]
  · intro h; exact absurd (Finset.mem_univ k) h

end Cert.MatchCost

end
-- ==== Proof.RefClass.lean ====
/-
  The reference's class term at an entry: the focal cost of the logistic of the logit the target's class id selects.

  The reference takes column `id_t` of the 16000 × 91 table of logistic values for every target `t` at once (a gather whose
  one start-indexed axis, the class axis, is collapsed and whose row axis is carried whole as the offset axis), after
  wrapping a negative id by 91. For an id in `[0, 91)` the wrap does nothing and the clamp of the start index into
  `[0, 90]` is the id itself, so entry `(n, t)` of the gathered array is the logistic of logit `(n, id_t)`; the rest of
  the chain is pointwise and is the focal cost in the reference's spelling (powers `2.0`, negations).
-/
import proofs.«411175_j78245714198741_3_alg».proof.Proof.Gen.ReferenceIdeal.Read
import proofs.«411175_j78245714198741_3_alg».proof.Proof.Spec
import Idealize.ShloMosaic.Lib.ValueIdx
import Idealize.ShloMosaic.Lib.ValueLayout
import Idealize.ShloMosaic.Lib.StableHlo.Predicate

noncomputable section

namespace Cert.ReferenceIdeal.RefValue

open Cert.ReferenceIdeal Cert.ReferenceIdeal.Gen Cert.ReferenceIdeal.Read Cert.MatchCost
open Idealize.ShloMosaic Idealize.ShloMosaic.ValueIdx

/-! ## The column gather read at an entry -/

/-- The gather's dimension numbers: operand `[16000, 91]`, start indices `[2000, 1]`, result `[16000, 2000]`; the result's
    axis 0 is the offset axis (the operand's rows, slice size 16000), the operand's axis 1 is start-indexed and collapsed
    (slice size 1), and the index vector lies along axis 1 of the start indices. -/
abbrev colDims : GatherDims S16000x91 S2000x1 S16000x2000 := gather_S16000x91_S2000x1_S16000x2000_0_1_n_n_1_1_160001

/-- THE GATHER READ AT `(n, t)`: row `n` of the operand at the column the start index `idx[t, 0]` names, read signed and
    clamped into `[0, 90]`. On the row axis the start is `0` (the axis is not start-indexed) and the offset coordinate is
    the result's `n`; on the class axis the offset is `0` (the axis is collapsed) and the start is the clamped index of
    batch position `t`. Neither axis is a batching axis. -/
theorem gather_col_apply {α : Type} {w : Nat} (x : S16000x91.Idx → α) (idx : IVec S2000x1 w) (n : Fin 16000) (t : Fin 2000) :
    Host.gather colDims x idx (ix2 n t)
      = x (ix2 n (⟨min (idx (ix2 t (0 : Fin 1))).toInt.toNat 90, by omega⟩ : Fin 91)) := by
  unfold Host.gather
  congr 1
  funext a
  refine Fin.ext ?_
  match a with
  | ⟨0, _⟩ =>
    show colDims.start (ix2 n t) idx 0 + colDims.batchCoord (ix2 n t) 0 + colDims.offCoord (ix2 n t) 0 = n.val
    rw [GatherDims.batchCoord_eq_zero _ _ _ List.not_mem_nil]
    have hs : colDims.start (ix2 n t) idx 0 = 0 := by
      unfold GatherDims.start
      rw [dif_neg (show (0 : Fin 2) ∉ colDims.startIndexMap by decide)]
    rw [hs]
    have hk : (0 : Fin 2) ∈ colDims.sKept := by decide
    unfold GatherDims.offCoord
    rw [dif_pos hk]
    simp only [Nat.zero_add, Nat.add_zero]
    rfl
  | ⟨1, _⟩ =>
    show colDims.start (ix2 n t) idx 1 + colDims.batchCoord (ix2 n t) 1 + colDims.offCoord (ix2 n t) 1
      = min (idx (ix2 t (0 : Fin 1))).toInt.toNat 90
    rw [GatherDims.batchCoord_eq_zero _ _ _ List.not_mem_nil,
      GatherDims.offCoord_eq_zero _ _ _ (show (1 : Fin 2) ∉ colDims.sKept by decide)]
    simp only [Nat.add_zero]
    unfold GatherDims.start
    rw [dif_pos (show (1 : Fin 2) ∈ colDims.startIndexMap from List.mem_singleton.mpr rfl)]
    -- the start index of batch position `t`: the result's batch axis 1 read on the start indices' axis 0, component 0
    have hsi : colDims.siIdx (ix2 n t) ⟨List.idxOf (1 : Fin 2) colDims.startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl

/-! ## The start index of a target: its class id -/

/-- A word that is not negative as a signed integer is left alone by "add 91 if negative". -/
theorem wrapId_nonneg (a : BitVec 32) (h : 0 ≤ a.toInt) :
    Scalar.select (IntOp.cmpi .slt a 0#32) (IntOp.addi a 91#32) a = a := by
  have hc : IntOp.cmpi .slt a 0#32 = 0#1 := by
    unfold IntOp.cmpi
    show BitVec.ofBool (a.slt 0#32) = 0#1
    have hf : a.slt 0#32 = false := by
      simp only [BitVec.slt, BitVec.toInt_zero, decide_eq_false_iff_not, not_lt]
      exact h
    rw [hf]; rfl
  rw [hc]
  exact select_zero _ _

/-- Row `t` of the start-index column is target `t`'s id, when that id is not negative. -/
theorem idColumn_apply (x2 : (⟨S2000, .i32⟩ : BufTy).Contents (Elt Ideal))
    (hids : ∀ t : Fin 2000, 0 ≤ (x2 (ix1 t)).toInt ∧ (x2 (ix1 t)).toInt < 91) (t : Fin 2000) :
    val_main_v13 (F := Ideal) x2 (ix2 t (0 : Fin 1)) = x2 (ix1 t) := by
  have hi : idx_main_v13 (ix2 t (0 : Fin 1)) = ix1 t := by
    funext a; match a with | ⟨0, _⟩ => rfl
  rw [val_main_v13_apply, hi, val_main_v12_apply, val_main_v9_apply, val_main_v11_apply, val_main_v8_apply,
    val_main_c_apply, val_main_v10_apply, val_main_c_1_apply]
  exact wrapId_nonneg _ (hids t).1

/-! ## The gathered probability, and the class cost -/

/-- Entry `(n, t)` of the gathered array is the logistic of the logit of query row `n` at target `t`'s class. -/
theorem classProb_apply (x0 : (⟨S16x1000x91, .f32⟩ : BufTy).Contents (Elt Ideal)) (x2 : (⟨S2000, .i32⟩ : BufTy).Contents (Elt Ideal))
    (hids : ∀ t : Fin 2000, 0 ≤ (x2 (ix1 t)).toInt ∧ (x2 (ix1 t)).toInt < 91) (n : Fin 16000) (t : Fin 2000) :
    val_main_v14 (F := Ideal) x0 x2 (ix2 n t)
      = Ideal.logistic (val_main_v0 (F := Ideal) x0 (ix2 n (clsOf (x2 (ix1 t))))) := by
  have hcol : (⟨min (val_main_v13 (F := Ideal) x2 (ix2 t (0 : Fin 1))).toInt.toNat 90, by omega⟩ : Fin 91)
      = clsOf (x2 (ix1 t)) :=
    Fin.ext (by
      show min (val_main_v13 (F := Ideal) x2 (ix2 t (0 : Fin 1))).toInt.toNat 90 = min (x2 (ix1 t)).toInt.toNat 90
      rw [idColumn_apply x2 hids t])
  unfold val_main_v14
  rw [gather_col_apply, hcol]
  simp only [val_main_v6_apply, val_main_v5_apply, val_main_cst_0_apply, val_main_v4_apply, val_main_v3_apply,
    val_main_cst_apply, val_main_v2_apply, val_main_v1_apply]
  simp only [Ideal.hostDivf_def, Ideal.addf_def, Ideal.hostUnary_exp_def, Ideal.hostNegf_def, Ideal.negf_def, Ideal.ofBits_def]
  exact logistic_ref _

/-- Entry `(n, t)` of the reference's class cost, when every target id is a class in `[0, 91)`. -/
theorem class_apply (x0 : (⟨S16x1000x91, .f32⟩ : BufTy).Contents (Elt Ideal)) (x2 : (⟨S2000, .i32⟩ : BufTy).Contents (Elt Ideal))
    (hids : ∀ t : Fin 2000, 0 ≤ (x2 (ix1 t)).toInt ∧ (x2 (ix1 t)).toInt < 91) (n : Fin 16000) (t : Fin 2000) :
    val_main_v36 (F := Ideal) x0 x2 (ix2 n t)
      = focal (Ideal.logistic (val_main_v0 (F := Ideal) x0 (ix2 n (clsOf (x2 (ix1 t)))))) := by
  simp only [val_main_v36_apply, val_main_v35_apply, val_main_v34_apply, val_main_v33_apply, val_main_v32_apply,
    val_main_v31_apply, val_main_cst_8_apply, val_main_v30_apply, val_main_v29_apply, val_main_cst_7_apply,
    val_main_v28_apply, val_main_v27_apply, val_main_cst_6_apply, val_main_v26_apply, val_main_v25_apply,
    val_main_cst_5_apply, val_main_v24_apply, val_main_v23_apply, val_main_v22_apply, val_main_v21_apply,
    val_main_v20_apply, val_main_cst_4_apply, val_main_v19_apply, val_main_v18_apply, val_main_v17_apply,
    val_main_cst_3_apply, val_main_v16_apply, val_main_v15_apply, val_main_cst_2_apply]
  rw [classProb_apply x0 x2 hids n t]
  simp only [Ideal.subf_def, Ideal.mulf_def, Ideal.addf_def, Ideal.hostPowf_def, Ideal.hostUnary_log_def,
    Ideal.hostUnary_log1p_def, Ideal.hostNegf_def, Ideal.negf_def, Ideal.ofBits_def]
  exact focal_ref _

end Cert.ReferenceIdeal.RefValue

end
-- ==== Proof.RefBox.lean ====
/-
  The reference's two box terms at an entry: the L1 distance and the negated generalized IoU of query row n's box
  against target t's box.
-/
import proofs.«411175_j78245714198741_3_alg».proof.Proof.Gen.ReferenceIdeal.Read
import proofs.«411175_j78245714198741_3_alg».proof.Proof.Spec
import Idealize.ShloMosaic.Lib.ValueIdx
import Idealize.ShloMosaic.Lib.ValueLayout

noncomputable section

namespace Cert.ReferenceIdeal.RefValue

open Cert.ReferenceIdeal Cert.ReferenceIdeal.Gen Cert.ReferenceIdeal.Read Cert.MatchCost
open Idealize.ShloMosaic Idealize.ShloMosaic.ValueIdx
open scoped BigOperators

/-! ## A join of four one-column arrays, read at an entry -/

/-- Four one-column arrays joined along axis 1: column k of the result at row n is the k-th piece at (n, 0). -/
theorem concat4_apply {α : Type} {N : Nat} (c0 c1 c2 c3 : (⟨2, ![N, 1]⟩ : Shape).Idx → α)
    (h : Shape.Concatenates (([⟨⟨2, ![N, 1]⟩, c0⟩, ⟨⟨2, ![N, 1]⟩, c1⟩, ⟨⟨2, ![N, 1]⟩, c2⟩, ⟨⟨2, ![N, 1]⟩, c3⟩] :
      List ((s : Shape) × (s.Idx → α))).map (·.1)) ⟨2, ![N, 4]⟩ 1) (n : Fin N) :
    concatenate ⟨2, ![N, 4]⟩ 1 [⟨⟨2, ![N, 1]⟩, c0⟩, ⟨⟨2, ![N, 1]⟩, c1⟩, ⟨⟨2, ![N, 1]⟩, c2⟩, ⟨⟨2, ![N, 1]⟩, c3⟩] h (ix2 n (0 : Fin 4))
        = c0 (ix2 n (0 : Fin 1)) ∧
    concatenate ⟨2, ![N, 4]⟩ 1 [⟨⟨2, ![N, 1]⟩, c0⟩, ⟨⟨2, ![N, 1]⟩, c1⟩, ⟨⟨2, ![N, 1]⟩, c2⟩, ⟨⟨2, ![N, 1]⟩, c3⟩] h (ix2 n (1 : Fin 4))
        = c1 (ix2 n (0 : Fin 1)) ∧
    concatenate ⟨2, ![N, 4]⟩ 1 [⟨⟨2, ![N, 1]⟩, c0⟩, ⟨⟨2, ![N, 1]⟩, c1⟩, ⟨⟨2, ![N, 1]⟩, c2⟩, ⟨⟨2, ![N, 1]⟩, c3⟩] h (ix2 n (2 : Fin 4))
        = c2 (ix2 n (0 : Fin 1)) ∧
    concatenate ⟨2, ![N, 4]⟩ 1 [⟨⟨2, ![N, 1]⟩, c0⟩, ⟨⟨2, ![N, 1]⟩, c1⟩, ⟨⟨2, ![N, 1]⟩, c2⟩, ⟨⟨2, ![N, 1]⟩, c3⟩] h (ix2 n (3 : Fin 4))
        = c3 (ix2 n (0 : Fin 1)) := by
  have hi : ∀ (k : Fin 4) (b : Fin 2), b.cast rfl ≠ (1 : Fin 2) →
      ((ix2 n (0 : Fin 1) : (⟨2, ![N, 1]⟩ : Shape).Idx) b).val = ((ix2 n k : (⟨2, ![N, 4]⟩ : Shape).Idx) (b.cast rfl)).val := by
    intro k b hb
    match b with
    | ⟨0, _⟩ => rfl
    | ⟨1, _⟩ => exact absurd rfl hb
  refine ⟨?_, ?_, ?_, ?_⟩
  · exact concatenate_apply_piece (t := ⟨2, ![N, 4]⟩) (1 : Fin 2) [⟨⟨2, ![N, 1]⟩, c0⟩, ⟨⟨2, ![N, 1]⟩, c1⟩, ⟨⟨2, ![N, 1]⟩, c2⟩, ⟨⟨2, ![N, 1]⟩, c3⟩] h (ix2 n (0 : Fin 4)) 0 (by show (0 : Nat) < 4; omega) ⟨2, ![N, 1]⟩ c0 rfl rfl 0 rfl (ix2 n (0 : Fin 1)) (hi 0) (by rfl)
  · exact concatenate_apply_piece (t := ⟨2, ![N, 4]⟩) (1 : Fin 2) [⟨⟨2, ![N, 1]⟩, c0⟩, ⟨⟨2, ![N, 1]⟩, c1⟩, ⟨⟨2, ![N, 1]⟩, c2⟩, ⟨⟨2, ![N, 1]⟩, c3⟩] h (ix2 n (1 : Fin 4)) 1 (by show (1 : Nat) < 4; omega) ⟨2, ![N, 1]⟩ c1 rfl rfl 1 rfl (ix2 n (0 : Fin 1)) (hi 1) (by rfl)
  · exact concatenate_apply_piece (t := ⟨2, ![N, 4]⟩) (1 : Fin 2) [⟨⟨2, ![N, 1]⟩, c0⟩, ⟨⟨2, ![N, 1]⟩, c1⟩, ⟨⟨2, ![N, 1]⟩, c2⟩, ⟨⟨2, ![N, 1]⟩, c3⟩] h (ix2 n (2 : Fin 4)) 2 (by show (2 : Nat) < 4; omega) ⟨2, ![N, 1]⟩ c2 rfl rfl 2 rfl (ix2 n (0 : Fin 1)) (hi 2) (by rfl)
  · exact concatenate_apply_piece (t := ⟨2, ![N, 4]⟩) (1 : Fin 2) [⟨⟨2, ![N, 1]⟩, c0⟩, ⟨⟨2, ![N, 1]⟩, c1⟩, ⟨⟨2, ![N, 1]⟩, c2⟩, ⟨⟨2, ![N, 1]⟩, c3⟩] h (ix2 n (3 : Fin 4)) 3 (by show (3 : Nat) < 4; omega) ⟨2, ![N, 1]⟩ c3 rfl rfl 3 rfl (ix2 n (0 : Fin 1)) (hi 3) (by rfl)

/-! ## The two boxes of an entry -/

/-- Query row `n`'s box `(cx, cy, w, h)` and target `t`'s box, as the coordinate functions the cost is stated over. -/
abbrev pb (x1 : (⟨S16x1000x4, .f32⟩ : BufTy).Contents (Elt Ideal)) (n : Fin 16000) : Fin 4 → EReal := fun k => val_main_v7 (F := Ideal) x1 (ix2 n k)
abbrev tb (x3 : (⟨S2000x4, .f32⟩ : BufTy).Contents (Elt Ideal)) (t : Fin 2000) : Fin 4 → EReal := fun k => x3 (ix2 t k)

/-! ## One coordinate of a box: a one-column slice read as a vector -/

theorem pcol0 (x1 : (⟨S16x1000x4, .f32⟩ : BufTy).Contents (Elt Ideal)) (n : Fin 16000) :
    val_main_v45 (F := Ideal) x1 (ix1 n) = pb x1 n 0 := by
  rw [val_main_v45_apply, val_main_v44_apply]
  exact congrArg (val_main_v7 (F := Ideal) x1)
    (funext fun a => Fin.ext (by match a with | ⟨0, _⟩ => exact Nat.div_one _ | ⟨1, _⟩ => rfl))

theorem pcol1 (x1 : (⟨S16x1000x4, .f32⟩ : BufTy).Contents (Elt Ideal)) (n : Fin 16000) :
    val_main_v47 (F := Ideal) x1 (ix1 n) = pb x1 n 1 := by
  rw [val_main_v47_apply, val_main_v46_apply]
  exact congrArg (val_main_v7 (F := Ideal) x1)
    (funext fun a => Fin.ext (by match a with | ⟨0, _⟩ => exact Nat.div_one _ | ⟨1, _⟩ => rfl))

theorem pcol2 (x1 : (⟨S16x1000x4, .f32⟩ : BufTy).Contents (Elt Ideal)) (n : Fin 16000) :
    val_main_v49 (F := Ideal) x1 (ix1 n) = pb x1 n 2 := by
  rw [val_main_v49_apply, val_main_v48_apply]
  exact congrArg (val_main_v7 (F := Ideal) x1)
    (funext fun a => Fin.ext (by match a with | ⟨0, _⟩ => exact Nat.div_one _ | ⟨1, _⟩ => rfl))

theorem pcol3 (x1 : (⟨S16x1000x4, .f32⟩ : BufTy).Contents (Elt Ideal)) (n : Fin 16000) :
    val_main_v51 (F := Ideal) x1 (ix1 n) = pb x1 n 3 := by
  rw [val_main_v51_apply, val_main_v50_apply]
  exact congrArg (val_main_v7 (F := Ideal) x1)
    (funext fun a => Fin.ext (by match a with | ⟨0, _⟩ => exact Nat.div_one _ | ⟨1, _⟩ => rfl))

theorem tcol0 (x3 : (⟨S2000x4, .f32⟩ : BufTy).Contents (Elt Ideal)) (t : Fin 2000) :
    val_main_v70 (F := Ideal) x3 (ix1 t) = tb x3 t 0 := by
  rw [val_main_v70_apply, val_main_v69_apply]
  exact congrArg x3
    (funext fun a => Fin.ext (by match a with | ⟨0, _⟩ => exact Nat.div_one _ | ⟨1, _⟩ => rfl))

theorem tcol1 (x3 : (⟨S2000x4, .f32⟩ : BufTy).Contents (Elt Ideal)) (t : Fin 2000) :
    val_main_v72 (F := Ideal) x3 (ix1 t) = tb x3 t 1 := by
  rw [val_main_v72_apply, val_main_v71_apply]
  exact congrArg x3
    (funext fun a => Fin.ext (by match a with | ⟨0, _⟩ => exact Nat.div_one _ | ⟨1, _⟩ => rfl))

theorem tcol2 (x3 : (⟨S2000x4, .f32⟩ : BufTy).Contents (Elt Ideal)) (t : Fin 2000) :
    val_main_v74 (F := Ideal) x3 (ix1 t) = tb x3 t 2 := by
  rw [val_main_v74_apply, val_main_v73_apply]
  exact congrArg x3
    (funext fun a => Fin.ext (by match a with | ⟨0, _⟩ => exact Nat.div_one _ | ⟨1, _⟩ => rfl))

theorem tcol3 (x3 : (⟨S2000x4, .f32⟩ : BufTy).Contents (Elt Ideal)) (t : Fin 2000) :
    val_main_v76 (F := Ideal) x3 (ix1 t) = tb x3 t 3 := by
  rw [val_main_v76_apply, val_main_v75_apply]
  exact congrArg x3
    (funext fun a => Fin.ext (by match a with | ⟨0, _⟩ => exact Nat.div_one _ | ⟨1, _⟩ => rfl))

/-! ## The corners: centre minus / plus half the extent, the word one half first in the product -/

theorem pcorner0 (x1 : (⟨S16x1000x4, .f32⟩ : BufTy).Contents (Elt Ideal)) (n : Fin 16000) :
    val_main_v54 (F := Ideal) x1 (ix1 n) = lo (pb x1 n 0) (pb x1 n 2) := by
  rw [val_main_v54_apply, val_main_v53_apply, val_main_v52_apply, pcol0, pcol2]
  rfl

theorem pcorner1 (x1 : (⟨S16x1000x4, .f32⟩ : BufTy).Contents (Elt Ideal)) (n : Fin 16000) :
    val_main_v57 (F := Ideal) x1 (ix1 n) = lo (pb x1 n 1) (pb x1 n 3) := by
  rw [val_main_v57_apply, val_main_v56_apply, val_main_v55_apply, pcol1, pcol3]
  rfl

theorem pcorner2 (x1 : (⟨S16x1000x4, .f32⟩ : BufTy).Contents (Elt Ideal)) (n : Fin 16000) :
    val_main_v60 (F := Ideal) x1 (ix1 n) = hi (pb x1 n 0) (pb x1 n 2) := by
  rw [val_main_v60_apply, val_main_v59_apply, val_main_v58_apply, pcol0, pcol2]
  rfl

theorem pcorner3 (x1 : (⟨S16x1000x4, .f32⟩ : BufTy).Contents (Elt Ideal)) (n : Fin 16000) :
    val_main_v63 (F := Ideal) x1 (ix1 n) = hi (pb x1 n 1) (pb x1 n 3) := by
  rw [val_main_v63_apply, val_main_v62_apply, val_main_v61_apply, pcol1, pcol3]
  rfl

theorem tcorner0 (x3 : (⟨S2000x4, .f32⟩ : BufTy).Contents (Elt Ideal)) (t : Fin 2000) :
    val_main_v79 (F := Ideal) x3 (ix1 t) = lo (tb x3 t 0) (tb x3 t 2) := by
  rw [val_main_v79_apply, val_main_v78_apply, val_main_v77_apply, tcol0, tcol2]
  rfl

theorem tcorner1 (x3 : (⟨S2000x4, .f32⟩ : BufTy).Contents (Elt Ideal)) (t : Fin 2000) :
    val_main_v82 (F := Ideal) x3 (ix1 t) = lo (tb x3 t 1) (tb x3 t 3) := by
  rw [val_main_v82_apply, val_main_v81_apply, val_main_v80_apply, tcol1, tcol3]
  rfl

theorem tcorner2 (x3 : (⟨S2000x4, .f32⟩ : BufTy).Contents (Elt Ideal)) (t : Fin 2000) :
    val_main_v85 (F := Ideal) x3 (ix1 t) = hi (tb x3 t 0) (tb x3 t 2) := by
  rw [val_main_v85_apply, val_main_v84_apply, val_main_v83_apply, tcol0, tcol2]
  rfl

theorem tcorner3 (x3 : (⟨S2000x4, .f32⟩ : BufTy).Contents (Elt Ideal)) (t : Fin 2000) :
    val_main_v88 (F := Ideal) x3 (ix1 t) = hi (tb x3 t 1) (tb x3 t 3) := by
  rw [val_main_v88_apply, val_main_v87_apply, val_main_v86_apply, tcol1, tcol3]
  rfl

/-! ## The corner arrays: four one-column arrays joined side by side -/

/-- The corners `(x0, y0, x1, y1)` of query row `n`'s box and of target `t`'s box. -/
abbrev px0 (x1 : (⟨S16x1000x4, .f32⟩ : BufTy).Contents (Elt Ideal)) (n : Fin 16000) : EReal := lo (pb x1 n 0) (pb x1 n 2)
abbrev py0 (x1 : (⟨S16x1000x4, .f32⟩ : BufTy).Contents (Elt Ideal)) (n : Fin 16000) : EReal := lo (pb x1 n 1) (pb x1 n 3)
abbrev px1 (x1 : (⟨S16x1000x4, .f32⟩ : BufTy).Contents (Elt Ideal)) (n : Fin 16000) : EReal := hi (pb x1 n 0) (pb x1 n 2)
abbrev py1 (x1 : (⟨S16x1000x4, .f32⟩ : BufTy).Contents (Elt Ideal)) (n : Fin 16000) : EReal := hi (pb x1 n 1) (pb x1 n 3)
abbrev tx0 (x3 : (⟨S2000x4, .f32⟩ : BufTy).Contents (Elt Ideal)) (t : Fin 2000) : EReal := lo (tb x3 t 0) (tb x3 t 2)
abbrev ty0 (x3 : (⟨S2000x4, .f32⟩ : BufTy).Contents (Elt Ideal)) (t : Fin 2000) : EReal := lo (tb x3 t 1) (tb x3 t 3)
abbrev tx1 (x3 : (⟨S2000x4, .f32⟩ : BufTy).Contents (Elt Ideal)) (t : Fin 2000) : EReal := hi (tb x3 t 0) (tb x3 t 2)
abbrev ty1 (x3 : (⟨S2000x4, .f32⟩ : BufTy).Contents (Elt Ideal)) (t : Fin 2000) : EReal := hi (tb x3 t 1) (tb x3 t 3)

theorem pbox0 (x1 : (⟨S16x1000x4, .f32⟩ : BufTy).Contents (Elt Ideal)) (n : Fin 16000) :
    val_main_v68 (F := Ideal) x1 (ix2 n 0) = px0 x1 n := by
  unfold val_main_v68
  refine (concat4_apply (N := 16000) (val_main_v64 (F := Ideal) x1) (val_main_v65 (F := Ideal) x1)
    (val_main_v66 (F := Ideal) x1) (val_main_v67 (F := Ideal) x1)
    concatenates_S16000x1_S16000x1_S16000x1_S16000x1_S16000x4_d1 n).1.trans ?_
  rw [val_main_v64_apply]
  exact (congrArg (val_main_v54 (F := Ideal) x1)
    (funext fun a => Fin.ext (by match a with | ⟨0, _⟩ => rfl))).trans (pcorner0 x1 n)

theorem pbox1 (x1 : (⟨S16x1000x4, .f32⟩ : BufTy).Contents (Elt Ideal)) (n : Fin 16000) :
    val_main_v68 (F := Ideal) x1 (ix2 n 1) = py0 x1 n := by
  unfold val_main_v68
  refine (concat4_apply (N := 16000) (val_main_v64 (F := Ideal) x1) (val_main_v65 (F := Ideal) x1)
    (val_main_v66 (F := Ideal) x1) (val_main_v67 (F := Ideal) x1)
    concatenates_S16000x1_S16000x1_S16000x1_S16000x1_S16000x4_d1 n).2.1.trans ?_
  rw [val_main_v65_apply]
  exact (congrArg (val_main_v57 (F := Ideal) x1)
    (funext fun a => Fin.ext (by match a with | ⟨0, _⟩ => rfl))).trans (pcorner1 x1 n)

theorem pbox2 (x1 : (⟨S16x1000x4, .f32⟩ : BufTy).Contents (Elt Ideal)) (n : Fin 16000) :
    val_main_v68 (F := Ideal) x1 (ix2 n 2) = px1 x1 n := by
  unfold val_main_v68
  refine (concat4_apply (N := 16000) (val_main_v64 (F := Ideal) x1) (val_main_v65 (F := Ideal) x1)
    (val_main_v66 (F := Ideal) x1) (val_main_v67 (F := Ideal) x1)
    concatenates_S16000x1_S16000x1_S16000x1_S16000x1_S16000x4_d1 n).2.2.1.trans ?_
  rw [val_main_v66_apply]
  exact (congrArg (val_main_v60 (F := Ideal) x1)
    (funext fun a => Fin.ext (by match a with | ⟨0, _⟩ => rfl))).trans (pcorner2 x1 n)

theorem pbox3 (x1 : (⟨S16x1000x4, .f32⟩ : BufTy).Contents (Elt Ideal)) (n : Fin 16000) :
    val_main_v68 (F := Ideal) x1 (ix2 n 3) = py1 x1 n := by
  unfold val_main_v68
  refine (concat4_apply (N := 16000) (val_main_v64 (F := Ideal) x1) (val_main_v65 (F := Ideal) x1)
    (val_main_v66 (F := Ideal) x1) (val_main_v67 (F := Ideal) x1)
    concatenates_S16000x1_S16000x1_S16000x1_S16000x1_S16000x4_d1 n).2.2.2.trans ?_
  rw [val_main_v67_apply]
  exact (congrArg (val_main_v63 (F := Ideal) x1)
    (funext fun a => Fin.ext (by match a with | ⟨0, _⟩ => rfl))).trans (pcorner3 x1 n)

theorem tbox0 (x3 : (⟨S2000x4, .f32⟩ : BufTy).Contents (Elt Ideal)) (t : Fin 2000) :
    val_main_v93 (F := Ideal) x3 (ix2 t 0) = tx0 x3 t := by
  unfold val_main_v93
  refine (concat4_apply (N := 2000) (val_main_v89 (F := Ideal) x3) (val_main_v90 (F := Ideal) x3)
    (val_main_v91 (F := Ideal) x3) (val_main_v92 (F := Ideal) x3)
    concatenates_S2000x1_S2000x1_S2000x1_S2000x1_S2000x4_d1 t).1.trans ?_
  rw [val_main_v89_apply]
  exact (congrArg (val_main_v79 (F := Ideal) x3)
    (funext fun a => Fin.ext (by match a with | ⟨0, _⟩ => rfl))).trans (tcorner0 x3 t)

theorem tbox1 (x3 : (⟨S2000x4, .f32⟩ : BufTy).Contents (Elt Ideal)) (t : Fin 2000) :
    val_main_v93 (F := Ideal) x3 (ix2 t 1) = ty0 x3 t := by
  unfold val_main_v93
  refine (concat4_apply (N := 2000) (val_main_v89 (F := Ideal) x3) (val_main_v90 (F := Ideal) x3)
    (val_main_v91 (F := Ideal) x3) (val_main_v92 (F := Ideal) x3)
    concatenates_S2000x1_S2000x1_S2000x1_S2000x1_S2000x4_d1 t).2.1.trans ?_
  rw [val_main_v90_apply]
  exact (congrArg (val_main_v82 (F := Ideal) x3)
    (funext fun a => Fin.ext (by match a with | ⟨0, _⟩ => rfl))).trans (tcorner1 x3 t)

theorem tbox2 (x3 : (⟨S2000x4, .f32⟩ : BufTy).Contents (Elt Ideal)) (t : Fin 2000) :
    val_main_v93 (F := Ideal) x3 (ix2 t 2) = tx1 x3 t := by
  unfold val_main_v93
  refine (concat4_apply (N := 2000) (val_main_v89 (F := Ideal) x3) (val_main_v90 (F := Ideal) x3)
    (val_main_v91 (F := Ideal) x3) (val_main_v92 (F := Ideal) x3)
    concatenates_S2000x1_S2000x1_S2000x1_S2000x1_S2000x4_d1 t).2.2.1.trans ?_
  rw [val_main_v91_apply]
  exact (congrArg (val_main_v85 (F := Ideal) x3)
    (funext fun a => Fin.ext (by match a with | ⟨0, _⟩ => rfl))).trans (tcorner2 x3 t)

theorem tbox3 (x3 : (⟨S2000x4, .f32⟩ : BufTy).Contents (Elt Ideal)) (t : Fin 2000) :
    val_main_v93 (F := Ideal) x3 (ix2 t 3) = ty1 x3 t := by
  unfold val_main_v93
  refine (concat4_apply (N := 2000) (val_main_v89 (F := Ideal) x3) (val_main_v90 (F := Ideal) x3)
    (val_main_v91 (F := Ideal) x3) (val_main_v92 (F := Ideal) x3)
    concatenates_S2000x1_S2000x1_S2000x1_S2000x1_S2000x4_d1 t).2.2.2.trans ?_
  rw [val_main_v92_apply]
  exact (congrArg (val_main_v88 (F := Ideal) x3)
    (funext fun a => Fin.ext (by match a with | ⟨0, _⟩ => rfl))).trans (tcorner3 x3 t)

/-! ## The two areas -/

theorem parea (x1 : (⟨S16x1000x4, .f32⟩ : BufTy).Contents (Elt Ideal)) (n : Fin 16000) :
    val_main_v104 (F := Ideal) x1 (ix1 n) = (px1 x1 n - px0 x1 n) * (py1 x1 n - py0 x1 n) := by
  rw [val_main_v104_apply, val_main_v98_apply, val_main_v103_apply, val_main_v95_apply, val_main_v94_apply,
    val_main_v97_apply, val_main_v96_apply, val_main_v100_apply, val_main_v99_apply, val_main_v102_apply,
    val_main_v101_apply]
  have e2 : idx_main_v94 (idx_main_v95 (ix1 n)) = ix2 n 2 :=
    funext fun a => Fin.ext (by match a with | ⟨0, _⟩ => exact Nat.div_one _ | ⟨1, _⟩ => rfl)
  have e0 : idx_main_v96 (idx_main_v97 (ix1 n)) = ix2 n 0 :=
    funext fun a => Fin.ext (by match a with | ⟨0, _⟩ => exact Nat.div_one _ | ⟨1, _⟩ => rfl)
  have e3 : idx_main_v99 (idx_main_v100 (ix1 n)) = ix2 n 3 :=
    funext fun a => Fin.ext (by match a with | ⟨0, _⟩ => exact Nat.div_one _ | ⟨1, _⟩ => rfl)
  have e1 : idx_main_v101 (idx_main_v102 (ix1 n)) = ix2 n 1 :=
    funext fun a => Fin.ext (by match a with | ⟨0, _⟩ => exact Nat.div_one _ | ⟨1, _⟩ => rfl)
  rw [e2, e0, e3, e1, pbox2, pbox0, pbox3, pbox1]
  rfl

theorem tarea (x3 : (⟨S2000x4, .f32⟩ : BufTy).Contents (Elt Ideal)) (t : Fin 2000) :
    val_main_v115 (F := Ideal) x3 (ix1 t) = (tx1 x3 t - tx0 x3 t) * (ty1 x3 t - ty0 x3 t) := by
  rw [val_main_v115_apply, val_main_v109_apply, val_main_v114_apply, val_main_v106_apply, val_main_v105_apply,
    val_main_v108_apply, val_main_v107_apply, val_main_v111_apply, val_main_v110_apply, val_main_v113_apply,
    val_main_v112_apply]
  have e2 : idx_main_v105 (idx_main_v106 (ix1 t)) = ix2 t 2 :=
    funext fun a => Fin.ext (by match a with | ⟨0, _⟩ => exact Nat.div_one _ | ⟨1, _⟩ => rfl)
  have e0 : idx_main_v107 (idx_main_v108 (ix1 t)) = ix2 t 0 :=
    funext fun a => Fin.ext (by match a with | ⟨0, _⟩ => exact Nat.div_one _ | ⟨1, _⟩ => rfl)
  have e3 : idx_main_v110 (idx_main_v111 (ix1 t)) = ix2 t 3 :=
    funext fun a => Fin.ext (by match a with | ⟨0, _⟩ => exact Nat.div_one _ | ⟨1, _⟩ => rfl)
  have e1 : idx_main_v112 (idx_main_v113 (ix1 t)) = ix2 t 1 :=
    funext fun a => Fin.ext (by match a with | ⟨0, _⟩ => exact Nat.div_one _ | ⟨1, _⟩ => rfl)
  rw [e2, e0, e3, e1, tbox2, tbox0, tbox3, tbox1]
  rfl

/-! ## The clipped overlap and hull extents along the two axes -/

theorem overlap0 (x1 : (⟨S16x1000x4, .f32⟩ : BufTy).Contents (Elt Ideal)) (x3 : (⟨S2000x4, .f32⟩ : BufTy).Contents (Elt Ideal))
    (n : Fin 16000) (t : Fin 2000) :
    val_main_v131 (F := Ideal) x1 x3 (ix3 n t 0) = ovl (px0 x1 n) (px1 x1 n) (tx0 x3 t) (tx1 x3 t) := by
  rw [val_main_v131_apply, val_main_call0_v1_apply, val_main_v130_apply, val_main_v129_apply, val_main_v122_apply,
    val_main_v127_apply, val_main_v124_apply, val_main_v123_apply, val_main_v128_apply, val_main_v126_apply,
    val_main_v125_apply, val_main_v120_apply, val_main_v117_apply, val_main_v116_apply, val_main_v121_apply,
    val_main_v119_apply, val_main_v118_apply]
  have eA : idx_main_v123 (idx_main_v124 (idx_main_v127 (ix3 n t 0))) = ix2 n 2 :=
    funext fun a => Fin.ext (by match a with | ⟨0, _⟩ => rfl | ⟨1, _⟩ => rfl)
  have eB : idx_main_v125 (idx_main_v126 (idx_main_v128 (ix3 n t 0))) = ix2 t 2 :=
    funext fun a => Fin.ext (by match a with | ⟨0, _⟩ => rfl | ⟨1, _⟩ => rfl)
  have eC : idx_main_v116 (idx_main_v117 (idx_main_v120 (ix3 n t 0))) = ix2 n 0 :=
    funext fun a => Fin.ext (by match a with | ⟨0, _⟩ => rfl | ⟨1, _⟩ => rfl)
  have eD : idx_main_v118 (idx_main_v119 (idx_main_v121 (ix3 n t 0))) = ix2 t 0 :=
    funext fun a => Fin.ext (by match a with | ⟨0, _⟩ => rfl | ⟨1, _⟩ => rfl)
  rw [eA, eB, eC, eD, pbox2, tbox2, pbox0, tbox0]
  rfl

theorem overlap1 (x1 : (⟨S16x1000x4, .f32⟩ : BufTy).Contents (Elt Ideal)) (x3 : (⟨S2000x4, .f32⟩ : BufTy).Contents (Elt Ideal))
    (n : Fin 16000) (t : Fin 2000) :
    val_main_v131 (F := Ideal) x1 x3 (ix3 n t 1) = ovl (py0 x1 n) (py1 x1 n) (ty0 x3 t) (ty1 x3 t) := by
  rw [val_main_v131_apply, val_main_call0_v1_apply, val_main_v130_apply, val_main_v129_apply, val_main_v122_apply,
    val_main_v127_apply, val_main_v124_apply, val_main_v123_apply, val_main_v128_apply, val_main_v126_apply,
    val_main_v125_apply, val_main_v120_apply, val_main_v117_apply, val_main_v116_apply, val_main_v121_apply,
    val_main_v119_apply, val_main_v118_apply]
  have eA : idx_main_v123 (idx_main_v124 (idx_main_v127 (ix3 n t 1))) = ix2 n 3 :=
    funext fun a => Fin.ext (by match a with | ⟨0, _⟩ => rfl | ⟨1, _⟩ => rfl)
  have eB : idx_main_v125 (idx_main_v126 (idx_main_v128 (ix3 n t 1))) = ix2 t 3 :=
    funext fun a => Fin.ext (by match a with | ⟨0, _⟩ => rfl | ⟨1, _⟩ => rfl)
  have eC : idx_main_v116 (idx_main_v117 (idx_main_v120 (ix3 n t 1))) = ix2 n 1 :=
    funext fun a => Fin.ext (by match a with | ⟨0, _⟩ => rfl | ⟨1, _⟩ => rfl)
  have eD : idx_main_v118 (idx_main_v119 (idx_main_v121 (ix3 n t 1))) = ix2 t 1 :=
    funext fun a => Fin.ext (by match a with | ⟨0, _⟩ => rfl | ⟨1, _⟩ => rfl)
  rw [eA, eB, eC, eD, pbox3, tbox3, pbox1, tbox1]
  rfl

theorem hullExt0 (x1 : (⟨S16x1000x4, .f32⟩ : BufTy).Contents (Elt Ideal)) (x3 : (⟨S2000x4, .f32⟩ : BufTy).Contents (Elt Ideal))
    (n : Fin 16000) (t : Fin 2000) :
    val_main_v159 (F := Ideal) x1 x3 (ix3 n t 0) = hull (px0 x1 n) (px1 x1 n) (tx0 x3 t) (tx1 x3 t) := by
  rw [val_main_v159_apply, val_main_call1_v1_apply, val_main_v158_apply, val_main_v157_apply, val_main_v150_apply,
    val_main_v155_apply, val_main_v152_apply, val_main_v151_apply, val_main_v156_apply, val_main_v154_apply,
    val_main_v153_apply, val_main_v148_apply, val_main_v145_apply, val_main_v144_apply, val_main_v149_apply,
    val_main_v147_apply, val_main_v146_apply]
  have eA : idx_main_v151 (idx_main_v152 (idx_main_v155 (ix3 n t 0))) = ix2 n 2 :=
    funext fun a => Fin.ext (by match a with | ⟨0, _⟩ => rfl | ⟨1, _⟩ => rfl)
  have eB : idx_main_v153 (idx_main_v154 (idx_main_v156 (ix3 n t 0))) = ix2 t 2 :=
    funext fun a => Fin.ext (by match a with | ⟨0, _⟩ => rfl | ⟨1, _⟩ => rfl)
  have eC : idx_main_v144 (idx_main_v145 (idx_main_v148 (ix3 n t 0))) = ix2 n 0 :=
    funext fun a => Fin.ext (by match a with | ⟨0, _⟩ => rfl | ⟨1, _⟩ => rfl)
  have eD : idx_main_v146 (idx_main_v147 (idx_main_v149 (ix3 n t 0))) = ix2 t 0 :=
    funext fun a => Fin.ext (by match a with | ⟨0, _⟩ => rfl | ⟨1, _⟩ => rfl)
  rw [eA, eB, eC, eD, pbox2, tbox2, pbox0, tbox0]
  rfl

theorem hullExt1 (x1 : (⟨S16x1000x4, .f32⟩ : BufTy).Contents (Elt Ideal)) (x3 : (⟨S2000x4, .f32⟩ : BufTy).Contents (Elt Ideal))
    (n : Fin 16000) (t : Fin 2000) :
    val_main_v159 (F := Ideal) x1 x3 (ix3 n t 1) = hull (py0 x1 n) (py1 x1 n) (ty0 x3 t) (ty1 x3 t) := by
  rw [val_main_v159_apply, val_main_call1_v1_apply, val_main_v158_apply, val_main_v157_apply, val_main_v150_apply,
    val_main_v155_apply, val_main_v152_apply, val_main_v151_apply, val_main_v156_apply, val_main_v154_apply,
    val_main_v153_apply, val_main_v148_apply, val_main_v145_apply, val_main_v144_apply, val_main_v149_apply,
    val_main_v147_apply, val_main_v146_apply]
  have eA : idx_main_v151 (idx_main_v152 (idx_main_v155 (ix3 n t 1))) = ix2 n 3 :=
    funext fun a => Fin.ext (by match a with | ⟨0, _⟩ => rfl | ⟨1, _⟩ => rfl)
  have eB : idx_main_v153 (idx_main_v154 (idx_main_v156 (ix3 n t 1))) = ix2 t 3 :=
    funext fun a => Fin.ext (by match a with | ⟨0, _⟩ => rfl | ⟨1, _⟩ => rfl)
  have eC : idx_main_v144 (idx_main_v145 (idx_main_v148 (ix3 n t 1))) = ix2 n 1 :=
    funext fun a => Fin.ext (by match a with | ⟨0, _⟩ => rfl | ⟨1, _⟩ => rfl)
  have eD : idx_main_v146 (idx_main_v147 (idx_main_v149 (ix3 n t 1))) = ix2 t 1 :=
    funext fun a => Fin.ext (by match a with | ⟨0, _⟩ => rfl | ⟨1, _⟩ => rfl)
  rw [eA, eB, eC, eD, pbox3, tbox3, pbox1, tbox1]
  rfl

/-! ## Intersection, union and hull areas of an entry -/

theorem inter_apply (x1 : (⟨S16x1000x4, .f32⟩ : BufTy).Contents (Elt Ideal)) (x3 : (⟨S2000x4, .f32⟩ : BufTy).Contents (Elt Ideal))
    (n : Fin 16000) (t : Fin 2000) :
    val_main_v136 (F := Ideal) x1 x3 (ix2 n t) = ovl (px0 x1 n) (px1 x1 n) (tx0 x3 t) (tx1 x3 t) * ovl (py0 x1 n) (py1 x1 n) (ty0 x3 t) (ty1 x3 t) := by
  rw [val_main_v136_apply, val_main_v133_apply, val_main_v132_apply, val_main_v135_apply, val_main_v134_apply]
  have e0 : idx_main_v132 (idx_main_v133 (ix2 n t)) = ix3 n t 0 :=
    funext fun a => Fin.ext (by
      have hn := n.isLt; have ht := t.isLt
      match a with
      | ⟨0, _⟩ => show (n.val * 2000 + t.val) / 2000 = n.val; omega
      | ⟨1, _⟩ => show (n.val * 2000 + t.val) / 1 % 2000 = t.val; omega
      | ⟨2, _⟩ => rfl)
  have e1 : idx_main_v134 (idx_main_v135 (ix2 n t)) = ix3 n t 1 :=
    funext fun a => Fin.ext (by
      have hn := n.isLt; have ht := t.isLt
      match a with
      | ⟨0, _⟩ => show (n.val * 2000 + t.val) / 2000 = n.val; omega
      | ⟨1, _⟩ => show (n.val * 2000 + t.val) / 1 % 2000 = t.val; omega
      | ⟨2, _⟩ => rfl)
  rw [e0, e1, overlap0, overlap1]
  rfl

theorem union_apply (x1 : (⟨S16x1000x4, .f32⟩ : BufTy).Contents (Elt Ideal)) (x3 : (⟨S2000x4, .f32⟩ : BufTy).Contents (Elt Ideal))
    (n : Fin 16000) (t : Fin 2000) :
    val_main_v142 (F := Ideal) x1 x3 (ix2 n t) = ((px1 x1 n - px0 x1 n) * (py1 x1 n - py0 x1 n) + (tx1 x3 t - tx0 x3 t) * (ty1 x3 t - ty0 x3 t)) - ovl (px0 x1 n) (px1 x1 n) (tx0 x3 t) (tx1 x3 t) * ovl (py0 x1 n) (py1 x1 n) (ty0 x3 t) (ty1 x3 t) := by
  rw [val_main_v142_apply, val_main_v141_apply, val_main_v139_apply, val_main_v137_apply, val_main_v140_apply,
    val_main_v138_apply, inter_apply]
  have eP : idx_main_v137 (idx_main_v139 (ix2 n t)) = ix1 n :=
    funext fun a => Fin.ext (by match a with | ⟨0, _⟩ => rfl)
  have eT : idx_main_v138 (idx_main_v140 (ix2 n t)) = ix1 t :=
    funext fun a => Fin.ext (by match a with | ⟨0, _⟩ => rfl)
  rw [eP, eT, parea, tarea]
  rfl

theorem hull_apply (x1 : (⟨S16x1000x4, .f32⟩ : BufTy).Contents (Elt Ideal)) (x3 : (⟨S2000x4, .f32⟩ : BufTy).Contents (Elt Ideal))
    (n : Fin 16000) (t : Fin 2000) :
    val_main_v164 (F := Ideal) x1 x3 (ix2 n t) = hull (px0 x1 n) (px1 x1 n) (tx0 x3 t) (tx1 x3 t) * hull (py0 x1 n) (py1 x1 n) (ty0 x3 t) (ty1 x3 t) := by
  rw [val_main_v164_apply, val_main_v161_apply, val_main_v160_apply, val_main_v163_apply, val_main_v162_apply]
  have e0 : idx_main_v160 (idx_main_v161 (ix2 n t)) = ix3 n t 0 :=
    funext fun a => Fin.ext (by
      have hn := n.isLt; have ht := t.isLt
      match a with
      | ⟨0, _⟩ => show (n.val * 2000 + t.val) / 2000 = n.val; omega
      | ⟨1, _⟩ => show (n.val * 2000 + t.val) / 1 % 2000 = t.val; omega
      | ⟨2, _⟩ => rfl)
  have e1 : idx_main_v162 (idx_main_v163 (ix2 n t)) = ix3 n t 1 :=
    funext fun a => Fin.ext (by
      have hn := n.isLt; have ht := t.isLt
      match a with
      | ⟨0, _⟩ => show (n.val * 2000 + t.val) / 2000 = n.val; omega
      | ⟨1, _⟩ => show (n.val * 2000 + t.val) / 1 % 2000 = t.val; omega
      | ⟨2, _⟩ => rfl)
  rw [e0, e1, hullExt0, hullExt1]
  rfl

/-! ## The two box terms of an entry -/

/-- Entry `(n, t)` of the reference's L1 term. -/
theorem l1_apply (x1 : (⟨S16x1000x4, .f32⟩ : BufTy).Contents (Elt Ideal)) (x3 : (⟨S2000x4, .f32⟩ : BufTy).Contents (Elt Ideal))
    (n : Fin 16000) (t : Fin 2000) :
    val_main_v43 (F := Ideal) x1 x3 (ix2 n t)
      = l1 (fun k => val_main_v7 (F := Ideal) x1 (ix2 n k)) (fun k => x3 (ix2 t k)) := by
  rw [val_main_v43_apply, ← l1_ref]
  refine congrArg₂ (· + ·) rfl (Finset.sum_congr rfl fun k _ => ?_)
  rw [val_main_v42_apply, val_main_v41_apply, val_main_v39_apply, val_main_v37_apply, val_main_v40_apply,
    val_main_v38_apply]
  have e1 : idx_main_v37 (idx_main_v39 (idx_main_v43 (ix2 n t) k)) = ix2 n k :=
    funext fun a => Fin.ext (by match a with | ⟨0, _⟩ => rfl | ⟨1, _⟩ => rfl)
  have e2 : idx_main_v38 (idx_main_v40 (idx_main_v43 (ix2 n t) k)) = ix2 t k :=
    funext fun a => Fin.ext (by match a with | ⟨0, _⟩ => rfl | ⟨1, _⟩ => rfl)
  rw [e1, e2]
  rfl

/-- Entry `(n, t)` of the reference's negated generalized IoU. -/
theorem giou_apply (x1 : (⟨S16x1000x4, .f32⟩ : BufTy).Contents (Elt Ideal)) (x3 : (⟨S2000x4, .f32⟩ : BufTy).Contents (Elt Ideal))
    (n : Fin 16000) (t : Fin 2000) :
    val_main_v168 (F := Ideal) x1 x3 (ix2 n t)
      = f0 - giou (fun k => val_main_v7 (F := Ideal) x1 (ix2 n k)) (fun k => x3 (ix2 t k)) := by
  rw [val_main_v168_apply, val_main_v167_apply, val_main_v166_apply, val_main_v165_apply, val_main_v143_apply,
    inter_apply, union_apply, hull_apply]
  exact neg_ref _

end Cert.ReferenceIdeal.RefValue

end
-- ==== Proof.RefValue.lean ====
/-
  The reference's result over the flattened queries is the cost `G2`.
-/
import proofs.«411175_j78245714198741_3_alg».proof.Proof.RefClass
import proofs.«411175_j78245714198741_3_alg».proof.Proof.RefBox

noncomputable section

namespace Cert.ReferenceIdeal.RefValue

open Cert.ReferenceIdeal Cert.ReferenceIdeal.Gen Cert.ReferenceIdeal.Read Cert.MatchCost
open Idealize.ShloMosaic Idealize.ShloMosaic.ValueIdx

/-- The reference's last value before the closing reshape, as one function of the flattened arguments. -/
theorem ref_eq (x0 : (⟨S16x1000x91, .f32⟩ : BufTy).Contents (Elt Ideal)) (x1 : (⟨S16x1000x4, .f32⟩ : BufTy).Contents (Elt Ideal))
    (x2 : (⟨S2000, .i32⟩ : BufTy).Contents (Elt Ideal)) (x3 : (⟨S2000x4, .f32⟩ : BufTy).Contents (Elt Ideal))
    (hids : ∀ t : Fin 2000, 0 ≤ (x2 (ix1 t)).toInt ∧ (x2 (ix1 t)).toInt < 91) :
    val_main_v176 (F := Ideal) x0 x1 x2 x3 = G2 (val_main_v0 (F := Ideal) x0) (val_main_v7 (F := Ideal) x1) x2 x3 := by
  funext i
  obtain ⟨n, t, rfl⟩ : ∃ (n : Fin 16000) (t : Fin 2000), i = ix2 n t := ⟨i 0, i 1, eq_ix2 i⟩
  -- the three weighted terms, each weight the word 1.0 broadcast from a scalar
  rw [val_main_v176_apply, val_main_v173_apply, val_main_v170_apply, val_main_v172_apply, val_main_v175_apply,
    val_main_v169_apply, val_main_v171_apply, val_main_v174_apply, val_main_cst_20_apply, val_main_cst_21_apply,
    val_main_cst_22_apply, class_apply x0 x2 hids n t, l1_apply x1 x3 n t, giou_apply x1 x3 n t]
  rfl

end Cert.ReferenceIdeal.RefValue

end
-- ==== Proof.TileDef.lean ====
/-
  One column tile of the tiled program's body as ONE pure function of what it loads.

  At a grid point the body loads a block of 256 query rows (their 91 logits and their boxes), and in each of four
  trips a slice of 512 columns of the selection table (91 × 2048) and of the transposed target boxes (4 × 2048);
  the trip stores, for those 256 rows and 512 columns, the cost assembled from the L1 term, the product of the
  per-class focal costs with the table's columns, and the generalized IoU term. `tilePay` is that stored tile.
-/
import proofs.«411175_j78245714198741_3_alg».proof.Proof.Gen.KernelIdeal.Skeleton

noncomputable section

namespace Cert.KernelIdeal.Tile

open Cert.KernelIdeal Cert.KernelIdeal.Gen Idealize.ShloMosaic

variable {F : FTy → Type} [FloatOps F]

/-- The tile one trip stores: `x0` the rows' logits, `x1` the rows' boxes, `xo` the table's 512 columns, `xt` the
    targets' 512 columns. -/
def tilePay (x0 : Vec F S256x91 .f32) (x1 : Vec F S256x4 .f32) (xo : Vec F S91x512 .f32) (xt : Vec F S4x512 .f32) :
    FVec F S256x512 .f32 :=
  k0_pay17 (k0_pay24 x1) (k0_pay25 x1) (k0_pay26 x1) (k0_pay1 (k0_pay21 x1) (k0_pay23 x1))
    (k0_pay2 (k0_pay21 x1) (k0_pay23 x1) (k0_pay24 x1) (k0_pay25 x1) (k0_pay26 x1))
    (k0_pay4 (k0_pay18 x0) xo) (k0_pay9 (k0_pay20 x1) (k0_pay21 x1) (k0_pay22 x1) (k0_pay23 x1) xt)
    (k0_pay10 xt) (k0_pay11 xt) (k0_pay12 xt) (k0_pay13 xt) (k0_pay14 xt) (k0_pay15 (k0_pay24 x1) xt)
    (k0_pay16 (k0_pay25 x1))

end Cert.KernelIdeal.Tile

end
-- ==== Proof.Tile.lean ====
/-
  What a grid point leaves in the output block: the four column tiles, each the function `tilePay` of the point's row
  block and of the tile's slices of the selection table and of the target boxes.

  The body's counted loop stores, at trip k, one 256 × 512 piece at column offset 512·k; the four pieces tile the
  256 × 2048 block, so the block read back is, at column y₁, the piece of trip y₁ / 512 at its local column y₁ % 512.
-/
import proofs.«411175_j78245714198741_3_alg».proof.Proof.Gen.KernelIdeal.Frame
import proofs.«411175_j78245714198741_3_alg».proof.Proof.TileDef
import Idealize.ShloMosaic.Lib.Pipeline.Value
import Idealize.ShloMosaic.Lib.ValueIdx
import Idealize.ShloMosaic.Lib.Tactic

set_option maxRecDepth 16384

noncomputable section

namespace Cert.KernelIdeal.Tile

open Cert.KernelIdeal Cert.KernelIdeal.Gen Idealize.ShloMosaic Idealize.ShloMosaic.TcCoe Idealize.SL.Sem
open Idealize.ShloMosaic.ValueIdx

variable {F : FTy → Type} [FloatOps F]

theorem hz2 : (![0, 0] : Fin 2 → Nat) = fun _ => 0 := funext fun a => by fin_cases a <;> rfl

/-- The loop makes four trips. -/
theorem trips_eq : k0_t1_loop.trips = 4 := by decide

/-- Trip `k`'s tile at local entry `(r, j)`, from the point's row block `x0`, `x1` and the whole table `x2` and targets `x3`:
    the table's and the targets' columns `[512 k, 512 k + 512)` are what the trip loads. -/
def tileAt (x0 : Vec F S256x91 .f32) (x1 : Vec F S256x4 .f32) (x2 : Vec F S91x2048 .f32) (x3 : Vec F S4x2048 .f32)
    (k : Fin k0_t1_loop.trips) (r : Fin 256) (j : Fin 512) : F .f32 :=
  tilePay x0 x1 (View.ld x2 (Rect.unit (s := S91x2048) (k0_off1 k) S91x512.size (k0_off1_inb k)))
    (View.ld x3 (Rect.unit (s := S4x2048) (k0_off2 k) S4x512.size (k0_off2_inb k))) (ix2 r j)

/-- The block a grid point leaves, as one function of its index: column `y₁` lies in trip `y₁ / 512`. -/
def tileFn (x0 : Vec F S256x91 .f32) (x1 : Vec F S256x4 .f32) (x2 : Vec F S91x2048 .f32) (x3 : Vec F S4x2048 .f32) :
    Vec F S256x2048 .f32 :=
  fun y => tileAt x0 x1 x2 x3
    ⟨(y 1).val / 512, by rw [trips_eq]; have h : (y 1).val < 2048 := (y 1).isLt; omega⟩
    ⟨(y 0).val, (y 0).isLt⟩
    ⟨(y 1).val % 512, Nat.mod_lt _ (by decide)⟩

/-- Trip `k` writes one piece: a 256 × 512 rectangle at column offset `512 k`, holding the trip's payload. -/
theorem trip_piece (𝒱 : Variants) (c : Dev nD) (bd : Option 𝒱.V) (i : grid0.Coords) (arg1 : Memref sig .tc .vmem S256x91 .f32) (harg1 : arg1.IsWhole) (arg2 : Memref sig .tc .vmem S256x4 .f32) (harg2 : arg2.IsWhole) (arg3 : Memref sig .tc .vmem S91x2048 .f32) (harg3 : arg3.IsWhole) (arg4 : Memref sig .tc .vmem S4x2048 .f32) (harg4 : arg4.IsWhole) (arg5 : Memref sig .tc .vmem S256x2048 .f32) (harg5 : arg5.IsWhole) (v27 : FVec F S256x91 .f32) (v30 : FVec F S256x1 .f32) (v31 : FVec F S256x1 .f32) (v32 : FVec F S256x1 .f32) (v33 : FVec F S256x1 .f32) (v36 : FVec F S256x1 .f32) (v39 : FVec F S256x1 .f32) (v42 : FVec F S256x1 .f32) (X_arg3 : BufTy.Contents (Elt F) arg3.view.ty) (X_arg4 : BufTy.Contents (Elt F) arg4.view.ty) (k : Fin k0_t1_loop.trips) :
    tripL_k0_t1 (F := F) 𝒱 c bd i arg1 harg1 arg2 harg2 arg3 harg3 arg4 harg4 arg5 harg5 v27 v30 v31 v32 v33 v36 v39 v42 X_arg3 X_arg4 k
      = [⟨Rect.unit (s := S256x2048) (k0_off3 k) S256x512.size (k0_off3_inb k),
          trip_k0_t1.sl.r_8 arg3 arg4 v27 v30 v31 v32 v33 v36 v39 v42 X_arg3 X_arg4 k⟩] := by
  unfold tripL_k0_t1 trip_k0_t1
  rfl

/-- That payload, on the values the body computes from the row block before the loop, is the tile: each load through a
    whole block reads the block, and the trip's loads read the table's and the targets' columns at its offset. -/
theorem trip_pay (c : Dev nD) (arg1 : Memref sig .tc .vmem S256x91 .f32) (harg1 : arg1.IsWhole) (arg2 : Memref sig .tc .vmem S256x4 .f32) (harg2 : arg2.IsWhole) (arg3 : Memref sig .tc .vmem S91x2048 .f32) (harg3 : arg3.IsWhole) (arg4 : Memref sig .tc .vmem S4x2048 .f32) (harg4 : arg4.IsWhole)
    (x0 : Vec F S256x91 .f32) (x1 : Vec F S256x4 .f32) (x2 : Vec F S91x2048 .f32) (x3 : Vec F S4x2048 .f32) (k : Fin k0_t1_loop.trips) (r : Fin 256) (j : Fin 512) :
    trip_k0_t1.sl.r_8 arg3 arg4 (kernelRun0_A.sl.r c arg1 harg1 x0) (kernelRun0_A.sl.r_1 c arg2 harg2 x1) (kernelRun0_A.sl.r_2 c arg2 harg2 x1)
      (kernelRun0_A.sl.r_3 c arg2 harg2 x1) (kernelRun0_A.sl.r_4 c arg2 harg2 x1) (kernelRun0_A.sl.r_5 c arg2 harg2 x1)
      (kernelRun0_A.sl.r_6 c arg2 harg2 x1) (kernelRun0_A.sl.r_7 c arg2 harg2 x1) (harg3.unread x2) (harg4.unread x3) k (ix2 r j)
    = tileAt x0 x1 x2 x3 k r j := by
  unfold tileAt tilePay
  unfold trip_k0_t1.sl.r_8 trip_k0_t1.sl.r trip_k0_t1.sl.r_1 trip_k0_t1.sl.r_2 trip_k0_t1.sl.r_3 trip_k0_t1.sl.r_4 trip_k0_t1.sl.r_5 trip_k0_t1.sl.r_6 trip_k0_t1.sl.r_7
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  simp only [View.readAt_eq_ld, harg1.read_unread, harg2.read_unread, harg3.read_unread, harg4.read_unread,
    View.ld_unit_zero (S := S256x91) hz2, View.ld_unit_zero (S := S256x4) hz2]

theorem tileAt_congr (x0 : Vec F S256x91 .f32) (x1 : Vec F S256x4 .f32) (x2 : Vec F S91x2048 .f32) (x3 : Vec F S4x2048 .f32)
    {k k' : Fin k0_t1_loop.trips} {r r' : Fin 256} {j j' : Fin 512} (hk : k.val = k'.val) (hr : r.val = r'.val) (hj : j.val = j'.val) :
    tileAt x0 x1 x2 x3 k r j = tileAt x0 x1 x2 x3 k' r' j' := by
  obtain rfl := Fin.ext hk; obtain rfl := Fin.ext hr; obtain rfl := Fin.ext hj; rfl

/-- Every piece of the first `n` trips is the block function restricted to the piece's rectangle. -/
theorem pieces_tile (c : Dev nD) (i : grid0.Coords) (arg1 : Memref sig .tc .vmem S256x91 .f32) (harg1 : arg1.IsWhole) (arg2 : Memref sig .tc .vmem S256x4 .f32) (harg2 : arg2.IsWhole) (arg3 : Memref sig .tc .vmem S91x2048 .f32) (harg3 : arg3.IsWhole) (arg4 : Memref sig .tc .vmem S4x2048 .f32) (harg4 : arg4.IsWhole) (arg5 : Memref sig .tc .vmem S256x2048 .f32) (harg5 : arg5.IsWhole)
    (x0 : Vec F S256x91 .f32) (x1 : Vec F S256x4 .f32) (x2 : Vec F S91x2048 .f32) (x3 : Vec F S4x2048 .f32) :
    ∀ n : ℕ, ∀ p ∈ pb_k0_t1 (F := F) Variants.none c none i arg1 harg1 arg2 harg2 arg3 harg3 arg4 harg4 arg5 harg5
      (kernelRun0_A.sl.r c arg1 harg1 x0) (kernelRun0_A.sl.r_1 c arg2 harg2 x1) (kernelRun0_A.sl.r_2 c arg2 harg2 x1)
      (kernelRun0_A.sl.r_3 c arg2 harg2 x1) (kernelRun0_A.sl.r_4 c arg2 harg2 x1) (kernelRun0_A.sl.r_5 c arg2 harg2 x1)
      (kernelRun0_A.sl.r_6 c arg2 harg2 x1) (kernelRun0_A.sl.r_7 c arg2 harg2 x1) (harg3.unread x2) (harg4.unread x3) n,
      ∀ x : p.1.shape.Idx, p.2 x = tileFn x0 x1 x2 x3 (p.1.emb x)
  | 0 => by
    intro p hp
    rw [pb_k0_t1.eq_1] at hp
    exact absurd hp List.not_mem_nil
  | n + 1 => by
    intro p hp x
    rw [pb_k0_t1.eq_2] at hp
    unfold pb_k0_t1Step at hp
    split at hp
    · rename_i h
      rw [trip_piece, List.singleton_append, List.mem_cons] at hp
      rcases hp with rfl | hp
      · obtain ⟨r, j, rfl⟩ : ∃ (r : Fin 256) (j : Fin 512), x = ix2 r j := ⟨x 0, x 1, eq_ix2 x⟩
        dsimp only
        rw [trip_pay]
        have e0 : k0_off3 (⟨n, h⟩ : Fin k0_t1_loop.trips) 0 = 0 := by rw [k0_off3_eq]; rfl
        have e1 : k0_off3 (⟨n, h⟩ : Fin k0_t1_loop.trips) 1 = 512 * n := by rw [k0_off3_eq]; rfl
        unfold tileFn
        refine tileAt_congr x0 x1 x2 x3 ?_ ?_ ?_
        · show n = (k0_off3 (⟨n, h⟩ : Fin k0_t1_loop.trips) 1 + 1 * j.val) / 512
          rw [e1]; have := j.isLt; omega
        · show r.val = k0_off3 (⟨n, h⟩ : Fin k0_t1_loop.trips) 0 + 1 * r.val
          rw [e0]; omega
        · show j.val = (k0_off3 (⟨n, h⟩ : Fin k0_t1_loop.trips) 1 + 1 * j.val) % 512
          rw [e1]; have := j.isLt; omega
      · exact pieces_tile c i arg1 harg1 arg2 harg2 arg3 harg3 arg4 harg4 arg5 harg5 x0 x1 x2 x3 n p hp x
    · exact pieces_tile c i arg1 harg1 arg2 harg2 arg3 harg3 arg4 harg4 arg5 harg5 x0 x1 x2 x3 n p hp x

/-- THE BLOCK a grid point leaves in the output's staging buffer is `tileFn` of the point's input blocks. -/
theorem out_tile (c : Dev nD) (i : grid0.Coords) (arg1 : Memref sig .tc .vmem S256x91 .f32) (harg1 : arg1.IsWhole) (arg2 : Memref sig .tc .vmem S256x4 .f32) (harg2 : arg2.IsWhole) (arg3 : Memref sig .tc .vmem S91x2048 .f32) (harg3 : arg3.IsWhole) (arg4 : Memref sig .tc .vmem S4x2048 .f32) (harg4 : arg4.IsWhole) (arg5 : Memref sig .tc .vmem S256x2048 .f32) (harg5 : arg5.IsWhole)
    (x0 : Vec F S256x91 .f32) (x1 : Vec F S256x4 .f32) (x2 : Vec F S91x2048 .f32) (x3 : Vec F S4x2048 .f32) :
    out0_A_4 c i arg1 harg1 arg2 harg2 arg3 harg3 arg4 harg4 arg5 harg5 x0 x1 x2 x3 = tileFn x0 x1 x2 x3 := by
  funext y
  unfold out0_A_4
  rw [View.read_writes_eq_canon _ _ _ (cover0_A_4 c i arg1 harg1 arg2 harg2 arg3 harg3 arg4 harg4 arg5 harg5 x0 x1 x2 x3)]
  refine View.canon_apply_of_pieces (tileFn x0 x1 x2 x3) _ ?_ y (cover0_A_4 c i arg1 harg1 arg2 harg2 arg3 harg3 arg4 harg4 arg5 harg5 x0 x1 x2 x3 y)
  unfold kernelRun0_A
  dsimp only
  exact pieces_tile c i arg1 harg1 arg2 harg2 arg3 harg3 arg4 harg4 arg5 harg5 x0 x1 x2 x3 _

end Cert.KernelIdeal.Tile

end
-- ==== Proof.TilePay.lean ====
/-
  The stored tile at an index: entry (r, j) of one column tile is the cost of query row r against the tile's column j.

  The road: each payload of the tile is read at an index over explicit coordinates. The four columns of the rows' boxes
  (a 256 × 1 slice each) read the box's coordinate at row r; the four rows of the targets' boxes (a 1 × 512 slice each)
  read the target's coordinate at column j; the corner columns and rows are the spec's `lo` and `hi` of those. A
  broadcast of a column to the tile reads the column at row r, of a row the row at column j. The product into the zero
  accumulator is the sum over the 91 classes of the row's focal costs times the table's column. The last payload then
  is the spec's `cost` over those pieces.
-/
import proofs.«411175_j78245714198741_3_alg».proof.Proof.TileDef
import proofs.«411175_j78245714198741_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Cert.MatchCost Idealize.ShloMosaic Idealize.ShloMosaic.ValueIdx
open scoped BigOperators

/-! ## Slices and broadcasts at an index -/

/-- Coordinate `k` of a row's box: the column slice at offset `k` of the 256 × 4 block, read at row `r`. -/
theorem colSlice_apply (x1 : Vec Ideal S256x4 .f32) (k : Fin 4) (h : S256x4.Slices ![0, k.val] S256x1) (r : Fin 256) :
    extractStridedSlice S256x1 ![0, k.val] x1 h (ix2 r (0 : Fin 1)) = x1 (ix2 r k) := by
  refine extractStridedSlice_apply _ x1 h _ _ fun a => ?_
  match a with
  | ⟨0, _⟩ => show r.val = 0 + r.val; omega
  | ⟨1, _⟩ => show k.val = k.val + 0; omega

/-- Coordinate `k` of a target's box: the row slice at offset `k` of the 4 × 512 block, read at column `j`. -/
theorem rowSlice_apply (xt : Vec Ideal S4x512 .f32) (k : Fin 4) (h : S4x512.Slices ![k.val, 0] S1x512) (j : Fin 512) :
    extractStridedSlice S1x512 ![k.val, 0] xt h (ix2 (0 : Fin 1) j) = xt (ix2 k j) := by
  refine extractStridedSlice_apply _ xt h _ _ fun a => ?_
  match a with
  | ⟨0, _⟩ => show k.val = k.val + 0; omega
  | ⟨1, _⟩ => show j.val = 0 + j.val; omega

/-- A column broadcast along the tile's columns reads the column at the row. -/
theorem bcastCol_apply (v : FVec Ideal S256x1 .f32) (h : S256x1.Broadcasts S256x512) (r : Fin 256) (j : Fin 512) :
    broadcastTo S256x512 v h (ix2 r j) = v (ix2 r (0 : Fin 1)) := by
  refine broadcastTo_apply v h _ _ fun a => ?_
  match a with
  | ⟨0, _⟩ => rfl
  | ⟨1, _⟩ => rfl

/-- A row broadcast along the tile's rows reads the row at the column. -/
theorem bcastRow_apply (v : FVec Ideal S1x512 .f32) (h : S1x512.Broadcasts S256x512) (r : Fin 256) (j : Fin 512) :
    broadcastTo S256x512 v h (ix2 r j) = v (ix2 (0 : Fin 1) j) := by
  refine broadcastTo_apply v h _ _ fun a => ?_
  match a with
  | ⟨0, _⟩ => rfl
  | ⟨1, _⟩ => rfl

/-! ## The rows' boxes: coordinates `(cx, cy, w, h)` and corners, as 256 × 1 columns -/

/-- The column of centres `cx`. -/
theorem pay20_apply (x1 : Vec Ideal S256x4 .f32) (r : Fin 256) :
    k0_pay20 (F := Ideal) x1 (ix2 r (0 : Fin 1)) = x1 (ix2 r 0) := by
  unfold k0_pay20 k0_pay19
  rw [shapeCast_self]
  exact colSlice_apply x1 0 _ r

/-- The column of centres `cy`. -/
theorem pay21_apply (x1 : Vec Ideal S256x4 .f32) (r : Fin 256) :
    k0_pay21 (F := Ideal) x1 (ix2 r (0 : Fin 1)) = x1 (ix2 r 1) := by
  unfold k0_pay21 k0_pay19
  rw [shapeCast_self]
  exact colSlice_apply x1 1 _ r

/-- The column of widths. -/
theorem pay22_apply (x1 : Vec Ideal S256x4 .f32) (r : Fin 256) :
    k0_pay22 (F := Ideal) x1 (ix2 r (0 : Fin 1)) = x1 (ix2 r 2) := by
  unfold k0_pay22 k0_pay19
  rw [shapeCast_self]
  exact colSlice_apply x1 2 _ r

/-- The column of heights. -/
theorem pay23_apply (x1 : Vec Ideal S256x4 .f32) (r : Fin 256) :
    k0_pay23 (F := Ideal) x1 (ix2 r (0 : Fin 1)) = x1 (ix2 r 3) := by
  unfold k0_pay23 k0_pay19
  rw [shapeCast_self]
  exact colSlice_apply x1 3 _ r

/-- The low corner along x: `cx − ½ w`. -/
theorem pay24_apply (x1 : Vec Ideal S256x4 .f32) (r : Fin 256) :
    k0_pay24 (F := Ideal) x1 (ix2 r (0 : Fin 1)) = lo (x1 (ix2 r 0)) (x1 (ix2 r 2)) := by
  unfold k0_pay24
  show k0_pay20 x1 (ix2 r (0 : Fin 1)) - fHalf * k0_pay22 x1 (ix2 r (0 : Fin 1)) = _
  rw [pay20_apply, pay22_apply]; rfl

/-- The low corner along y: `cy − ½ h`. -/
theorem pay25_apply (x1 : Vec Ideal S256x4 .f32) (r : Fin 256) :
    k0_pay25 (F := Ideal) x1 (ix2 r (0 : Fin 1)) = lo (x1 (ix2 r 1)) (x1 (ix2 r 3)) := by
  unfold k0_pay25
  show k0_pay21 x1 (ix2 r (0 : Fin 1)) - fHalf * k0_pay23 x1 (ix2 r (0 : Fin 1)) = _
  rw [pay21_apply, pay23_apply]; rfl

/-- The high corner along x: `cx + ½ w`. -/
theorem pay26_apply (x1 : Vec Ideal S256x4 .f32) (r : Fin 256) :
    k0_pay26 (F := Ideal) x1 (ix2 r (0 : Fin 1)) = hi (x1 (ix2 r 0)) (x1 (ix2 r 2)) := by
  unfold k0_pay26
  show k0_pay20 x1 (ix2 r (0 : Fin 1)) + fHalf * k0_pay22 x1 (ix2 r (0 : Fin 1)) = _
  rw [pay20_apply, pay22_apply]; rfl

/-- The high corner along y, from the columns `cy` and `h`: `cy + ½ h`, entry by entry. -/
theorem pay1_apply (v31 v33 : FVec Ideal S256x1 .f32) (i : S256x1.Idx) :
    k0_pay1 (F := Ideal) v31 v33 i = hi (v31 i) (v33 i) := rfl

/-- The rows' areas from the corner columns: the x extent times the y extent, entry by entry. -/
theorem pay2_apply (v31 v33 v36 v39 v42 : FVec Ideal S256x1 .f32) (i : S256x1.Idx) :
    k0_pay2 (F := Ideal) v31 v33 v36 v39 v42 i = (v42 i - v36 i) * (hi (v31 i) (v33 i) - v39 i) := rfl

/-! ## The targets' boxes: coordinates and corners, as 1 × 512 rows -/

/-- The row of the targets' centres `cx`. -/
theorem pay5_apply (xt : Vec Ideal S4x512 .f32) (j : Fin 512) : k0_pay5 (F := Ideal) xt (ix2 (0 : Fin 1) j) = xt (ix2 0 j) := by
  unfold k0_pay5 k0_pay3
  rw [shapeCast_self]
  exact rowSlice_apply xt 0 _ j

/-- The row of the targets' centres `cy`. -/
theorem pay6_apply (xt : Vec Ideal S4x512 .f32) (j : Fin 512) : k0_pay6 (F := Ideal) xt (ix2 (0 : Fin 1) j) = xt (ix2 1 j) := by
  unfold k0_pay6 k0_pay3
  rw [shapeCast_self]
  exact rowSlice_apply xt 1 _ j

/-- The row of the targets' widths. -/
theorem pay7_apply (xt : Vec Ideal S4x512 .f32) (j : Fin 512) : k0_pay7 (F := Ideal) xt (ix2 (0 : Fin 1) j) = xt (ix2 2 j) := by
  unfold k0_pay7 k0_pay3
  rw [shapeCast_self]
  exact rowSlice_apply xt 2 _ j

/-- The row of the targets' heights. -/
theorem pay8_apply (xt : Vec Ideal S4x512 .f32) (j : Fin 512) : k0_pay8 (F := Ideal) xt (ix2 (0 : Fin 1) j) = xt (ix2 3 j) := by
  unfold k0_pay8 k0_pay3
  rw [shapeCast_self]
  exact rowSlice_apply xt 3 _ j

/-- The targets' low corner along x. -/
theorem pay10_apply (xt : Vec Ideal S4x512 .f32) (j : Fin 512) :
    k0_pay10 (F := Ideal) xt (ix2 (0 : Fin 1) j) = lo (xt (ix2 0 j)) (xt (ix2 2 j)) := by
  unfold k0_pay10
  show k0_pay5 xt (ix2 (0 : Fin 1) j) - fHalf * k0_pay7 xt (ix2 (0 : Fin 1) j) = _
  rw [pay5_apply, pay7_apply]; rfl

/-- The targets' low corner along y. -/
theorem pay11_apply (xt : Vec Ideal S4x512 .f32) (j : Fin 512) :
    k0_pay11 (F := Ideal) xt (ix2 (0 : Fin 1) j) = lo (xt (ix2 1 j)) (xt (ix2 3 j)) := by
  unfold k0_pay11
  show k0_pay6 xt (ix2 (0 : Fin 1) j) - fHalf * k0_pay8 xt (ix2 (0 : Fin 1) j) = _
  rw [pay6_apply, pay8_apply]; rfl

/-- The targets' high corner along x. -/
theorem pay12_apply (xt : Vec Ideal S4x512 .f32) (j : Fin 512) :
    k0_pay12 (F := Ideal) xt (ix2 (0 : Fin 1) j) = hi (xt (ix2 0 j)) (xt (ix2 2 j)) := by
  unfold k0_pay12
  show k0_pay5 xt (ix2 (0 : Fin 1) j) + fHalf * k0_pay7 xt (ix2 (0 : Fin 1) j) = _
  rw [pay5_apply, pay7_apply]; rfl

/-- The targets' high corner along y. -/
theorem pay13_apply (xt : Vec Ideal S4x512 .f32) (j : Fin 512) :
    k0_pay13 (F := Ideal) xt (ix2 (0 : Fin 1) j) = hi (xt (ix2 1 j)) (xt (ix2 3 j)) := by
  unfold k0_pay13
  show k0_pay6 xt (ix2 (0 : Fin 1) j) + fHalf * k0_pay8 xt (ix2 (0 : Fin 1) j) = _
  rw [pay6_apply, pay8_apply]; rfl

/-- The targets' areas: the x extent times the y extent. -/
theorem pay14_apply (xt : Vec Ideal S4x512 .f32) (j : Fin 512) :
    k0_pay14 (F := Ideal) xt (ix2 (0 : Fin 1) j)
      = (hi (xt (ix2 0 j)) (xt (ix2 2 j)) - lo (xt (ix2 0 j)) (xt (ix2 2 j)))
        * (hi (xt (ix2 1 j)) (xt (ix2 3 j)) - lo (xt (ix2 1 j)) (xt (ix2 3 j))) := by
  unfold k0_pay14
  show (k0_pay12 xt (ix2 (0 : Fin 1) j) - k0_pay10 xt (ix2 (0 : Fin 1) j))
      * (k0_pay13 xt (ix2 (0 : Fin 1) j) - k0_pay11 xt (ix2 (0 : Fin 1) j)) = _
  rw [pay10_apply, pay11_apply, pay12_apply, pay13_apply]

/-! ## The tile-sized pieces -/

/-- The L1 term at `(r, j)`: the four absolute coordinate differences of row `r`'s box and column `j`'s target, summed
    first to last (an absolute value is `max x (−x)` on the extended reals). -/
theorem pay9_apply (v30 v31 v32 v33 : FVec Ideal S256x1 .f32) (xt : Vec Ideal S4x512 .f32) (r : Fin 256) (j : Fin 512) :
    k0_pay9 (F := Ideal) v30 v31 v32 v33 xt (ix2 r j)
      = ((absE (v30 (ix2 r (0 : Fin 1)) - xt (ix2 0 j)) + absE (v31 (ix2 r (0 : Fin 1)) - xt (ix2 1 j)))
          + absE (v32 (ix2 r (0 : Fin 1)) - xt (ix2 2 j))) + absE (v33 (ix2 r (0 : Fin 1)) - xt (ix2 3 j)) := by
  unfold k0_pay9
  show ((absE (broadcastTo S256x512 v30 _ (ix2 r j) - broadcastTo S256x512 (k0_pay5 xt) _ (ix2 r j))
        + absE (broadcastTo S256x512 v31 _ (ix2 r j) - broadcastTo S256x512 (k0_pay6 xt) _ (ix2 r j)))
        + absE (broadcastTo S256x512 v32 _ (ix2 r j) - broadcastTo S256x512 (k0_pay7 xt) _ (ix2 r j)))
        + absE (broadcastTo S256x512 v33 _ (ix2 r j) - broadcastTo S256x512 (k0_pay8 xt) _ (ix2 r j)) = _
  simp only [bcastCol_apply, bcastRow_apply, pay5_apply, pay6_apply, pay7_apply, pay8_apply]

/-- The larger of the two low corners along x, at `(r, j)`. -/
theorem pay15_apply (v36 : FVec Ideal S256x1 .f32) (xt : Vec Ideal S4x512 .f32) (r : Fin 256) (j : Fin 512) :
    k0_pay15 (F := Ideal) v36 xt (ix2 r j) = max (v36 (ix2 r (0 : Fin 1))) (lo (xt (ix2 0 j)) (xt (ix2 2 j))) := by
  unfold k0_pay15
  show max (broadcastTo S256x512 v36 _ (ix2 r j)) (broadcastTo S256x512 (k0_pay10 xt) _ (ix2 r j)) = _
  rw [bcastCol_apply, bcastRow_apply, pay10_apply]

/-- The rows' low corner along y, broadcast to the tile. -/
theorem pay16_apply (v39 : FVec Ideal S256x1 .f32) (r : Fin 256) (j : Fin 512) :
    k0_pay16 (F := Ideal) v39 (ix2 r j) = v39 (ix2 r (0 : Fin 1)) := by
  unfold k0_pay16
  exact bcastCol_apply v39 _ r j

/-- The per-class focal cost, entry by entry: the spec's `focal` of the logistic of the logit (squares as products, a
    negation as `0 − x`, the same float words). -/
theorem pay18_apply (x0 : Vec Ideal S256x91 .f32) (i : S256x91.Idx) :
    k0_pay18 (F := Ideal) x0 i = focal (Ideal.logistic (x0 i)) := by
  unfold k0_pay18
  rw [shapeCast_self]
  rfl

/-! ## The product of the focal costs with the table's columns -/

/-- The left operand's row coordinate is the output's row. -/
theorem lhs_dot_0 (j : S256x512.Idx) (k : dot_S256x91_S91x512_S256x512_1_0_0_1_n_n.contr.Idx) :
    ((dot_S256x91_S91x512_S256x512_1_0_0_1_n_n.lhsIdx j k) 0).val = (j 0).val := by
  unfold DotDims.lhsIdx
  rw [dif_neg (show ¬(0 : Fin S256x91.rank) ∈ dot_S256x91_S91x512_S256x512_1_0_0_1_n_n.lhsBatch by decide),
    dif_pos (show (0 : Fin S256x91.rank) ∈ dot_S256x91_S91x512_S256x512_1_0_0_1_n_n.lhsNonContracting by decide)]
  rfl

/-- The left operand's column coordinate is the contraction position. -/
theorem lhs_dot_1 (j : S256x512.Idx) (k : dot_S256x91_S91x512_S256x512_1_0_0_1_n_n.contr.Idx) :
    ((dot_S256x91_S91x512_S256x512_1_0_0_1_n_n.lhsIdx j k) 1).val = (k ⟨0, Nat.one_pos⟩).val :=
  dot_S256x91_S91x512_S256x512_1_0_0_1_n_n.lhsIdx_val_of_single (cl := 1) rfl j k

/-- The right operand's row coordinate is the contraction position. -/
theorem rhs_dot_0 (j : S256x512.Idx) (k : dot_S256x91_S91x512_S256x512_1_0_0_1_n_n.contr.Idx) :
    ((dot_S256x91_S91x512_S256x512_1_0_0_1_n_n.rhsIdx j k) 0).val = (k ⟨0, Nat.one_pos⟩).val :=
  dot_S256x91_S91x512_S256x512_1_0_0_1_n_n.rhsIdx_val_of_single (cr := 0) rfl j k

/-- The right operand's column coordinate is the output's column. -/
theorem rhs_dot_1 (j : S256x512.Idx) (k : dot_S256x91_S91x512_S256x512_1_0_0_1_n_n.contr.Idx) :
    ((dot_S256x91_S91x512_S256x512_1_0_0_1_n_n.rhsIdx j k) 1).val = (j 1).val := by
  unfold DotDims.rhsIdx
  rw [dif_neg (show ¬(1 : Fin S91x512.rank) ∈ dot_S256x91_S91x512_S256x512_1_0_0_1_n_n.rhsBatch by decide),
    dif_pos (show (1 : Fin S91x512.rank) ∈ dot_S256x91_S91x512_S256x512_1_0_0_1_n_n.rhsNonContracting by decide)]
  rfl

/-- Entry `(r, j)` of the product into the zero accumulator: row `r` of the left operand against column `j` of the
    right one, summed over the 91 classes. -/
theorem pay4_apply (v27 : FVec Ideal S256x91 .f32) (xo : Vec Ideal S91x512 .f32) (r : Fin 256) (j : Fin 512) :
    k0_pay4 (F := Ideal) v27 xo (ix2 r j) = ∑ c : Fin 91, v27 (ix2 r c) * xo (ix2 c j) := by
  unfold k0_pay4
  rw [shapeCast_self]
  show FloatOps.matmul dot_S256x91_S91x512_S256x512_1_0_0_1_n_n (some .fp32) v27 xo
      (constant (F := Ideal) S256x512 .f32 0x00000000#32) (ix2 r j) = _
  rw [Ideal.matmul_constant_zero_apply,
    ← Equiv.sum_comp (contrEquiv1 dot_S256x91_S91x512_S256x512_1_0_0_1_n_n 91 rfl rfl).symm]
  refine Finset.sum_congr rfl fun c _ => ?_
  have hc := contrEquiv1_symm_val dot_S256x91_S91x512_S256x512_1_0_0_1_n_n 91 rfl rfl c
  have hl : dot_S256x91_S91x512_S256x512_1_0_0_1_n_n.lhsIdx (ix2 r j)
      ((contrEquiv1 dot_S256x91_S91x512_S256x512_1_0_0_1_n_n 91 rfl rfl).symm c) = ix2 r c := by
    funext a; apply Fin.ext
    match a with
    | ⟨0, _⟩ => exact lhs_dot_0 _ _
    | ⟨1, _⟩ => exact (lhs_dot_1 _ _).trans hc
  have hr : dot_S256x91_S91x512_S256x512_1_0_0_1_n_n.rhsIdx (ix2 r j)
      ((contrEquiv1 dot_S256x91_S91x512_S256x512_1_0_0_1_n_n 91 rfl rfl).symm c) = ix2 c j := by
    funext a; apply Fin.ext
    match a with
    | ⟨0, _⟩ => exact (rhs_dot_0 _ _).trans hc
    | ⟨1, _⟩ => exact rhs_dot_1 _ _
  rw [hl, hr]

/-! ## The assembled tile -/

/-- The tile's last payload at `(r, j)`, over the corner columns and rows it broadcasts: the three weighted terms, the
    generalized IoU written over the two boxes' corners. `h48`, `h96` say the two precomputed areas are the corners'
    products, `h99`, `h100` what the two precomputed broadcasts read. -/
theorem pay17_apply (v36 v39 v42 v45 v48 : FVec Ideal S256x1 .f32) (v58 v81 : FVec Ideal S256x512 .f32)
    (v84 v87 v90 v93 v96 : FVec Ideal S1x512 .f32) (v99 v100 : FVec Ideal S256x512 .f32) (r : Fin 256) (j : Fin 512)
    (h48 : v48 (ix2 r (0 : Fin 1))
      = (v42 (ix2 r (0 : Fin 1)) - v36 (ix2 r (0 : Fin 1))) * (v45 (ix2 r (0 : Fin 1)) - v39 (ix2 r (0 : Fin 1))))
    (h96 : v96 (ix2 (0 : Fin 1) j)
      = (v90 (ix2 (0 : Fin 1) j) - v84 (ix2 (0 : Fin 1) j)) * (v93 (ix2 (0 : Fin 1) j) - v87 (ix2 (0 : Fin 1) j)))
    (h99 : v99 (ix2 r j) = max (v36 (ix2 r (0 : Fin 1))) (v84 (ix2 (0 : Fin 1) j)))
    (h100 : v100 (ix2 r j) = v39 (ix2 r (0 : Fin 1))) :
    k0_pay17 (F := Ideal) v36 v39 v42 v45 v48 v58 v81 v84 v87 v90 v93 v96 v99 v100 (ix2 r j)
      = (f1 * v81 (ix2 r j) + f1 * v58 (ix2 r j))
        + f1 * (f0 - giouC (v36 (ix2 r (0 : Fin 1))) (v39 (ix2 r (0 : Fin 1))) (v42 (ix2 r (0 : Fin 1)))
            (v45 (ix2 r (0 : Fin 1))) (v84 (ix2 (0 : Fin 1) j)) (v87 (ix2 (0 : Fin 1) j)) (v90 (ix2 (0 : Fin 1) j))
            (v93 (ix2 (0 : Fin 1) j))) := by
  unfold k0_pay17 giouC ovl hull
  simp only [addf_apply, subf_apply, mulf_apply, divf_apply, maximumf_apply, minimumf_apply, broadcast_apply,
    bcastCol_apply, bcastRow_apply, h48, h96, h99, h100]
  rfl

/-- Entry `(r, j)` of the tile: the L1 term, the row of per-class focal costs times column `j` of the table slice, and the
    generalized-IoU term, of row `r`'s box against column `j`'s target box. -/
theorem tilePay_apply (x0 : Vec Ideal S256x91 .f32) (x1 : Vec Ideal S256x4 .f32) (xo : Vec Ideal S91x512 .f32)
    (xt : Vec Ideal S4x512 .f32) (r : Fin 256) (j : Fin 512) :
    tilePay (F := Ideal) x0 x1 xo xt (ix2 r j)
      = cost (∑ c : Fin 91, focal (Ideal.logistic (x0 (ix2 r c))) * xo (ix2 c j))
          (fun k => x1 (ix2 r k)) (fun k => xt (ix2 k j)) := by
  unfold tilePay
  refine (pay17_apply _ _ _ _ _ _ _ _ _ _ _ _ _ _ r j rfl rfl
    ((pay15_apply _ xt r j).trans (by rw [pay10_apply])) (pay16_apply _ r j)).trans ?_
  rw [pay9_apply, pay4_apply, pay1_apply, pay24_apply, pay25_apply, pay26_apply, pay10_apply, pay11_apply, pay12_apply,
    pay13_apply, pay20_apply, pay21_apply, pay22_apply, pay23_apply]
  simp only [pay18_apply]
  rfl

end Cert.KernelIdeal.Tile

end
-- ==== Proof.HostIn.lean ====
/-
  What the region is launched on: the padded logits and boxes, the 0/1 selection table of the target ids and the
  transposed, padded target boxes — and that on the rows and columns that are not padding the tiled cost is the cost.
-/
import proofs.«411175_j78245714198741_3_alg».proof.Proof.Gen.KernelIdeal.Frame
import proofs.«411175_j78245714198741_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.KernelVsHost

noncomputable section

namespace Cert.KernelIdeal.HostIn

open Cert.KernelIdeal Cert.KernelIdeal.Gen Cert.MatchCost Idealize.ShloMosaic Idealize.ShloMosaic.TcCoe Idealize.SL.Sem
open Idealize.ShloMosaic.ValueIdx
open scoped BigOperators

variable (m : (ℓ : Loc nD τ sig) → Buf (Elt Ideal) ℓ)

/-- The padded logits as the host operations build them. -/
theorem e13 (c : Dev nD) : (V m c main_v13 : S16128x91.Idx → EReal) =
    pad S16128x91 ![0, 0] ![128, 0] ![0, 0]
      (shapeCast S16000x91 (m ((c.tc : Thread nD τ).loc main_arg0)) shapeCasts_S16x1000x91_S16000x91)
      (sitofp (F := Ideal) .f32 (constantI S_ 32 0#32)) pads_S16000x91_S16128x91_01280_000 h_S_ := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

theorem e14 (c : Dev nD) : (V m c main_v14 : S16128x4.Idx → EReal) =
    pad S16128x4 ![0, 0] ![128, 0] ![0, 0]
      (shapeCast S16000x4 (m ((c.tc : Thread nD τ).loc main_arg1)) shapeCasts_S16x1000x4_S16000x4)
      (sitofp (F := Ideal) .f32 (constantI S_ 32 0#32)) pads_S16000x4_S16128x4_01280_000 h_S_ := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

theorem e10 (c : Dev nD) : (V m c main_v10 : S91x2048.Idx → EReal) =
    pad S91x2048 ![0, 0] ![0, 48] ![0, 0]
      (uitofp (F := Ideal) .f32 (cmpi .eq
        (broadcastInDim S91x2000 ![0, 1] bcast_S1x2000_S91x2000_0_1
          (broadcastInDim S1x2000 ![1] bcast_S2000_S1x2000_1 (m ((c.tc : Thread nD τ).loc main_arg2))))
        (broadcastInDim S91x2000 ![0, 1] bcast_S91x1_S91x2000_0_1
          (broadcastInDim S91x1 ![0] bcast_S91_S91x1_0 (iotaInDim S91 32 0)))))
      (sitofp (F := Ideal) .f32 (constantI S_ 32 0#32)) pads_S91x2000_S91x2048_000_0480 h_S_ := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

theorem e12 (c : Dev nD) : (V m c main_v12 : S4x2048.Idx → EReal) =
    concatenate S4x2048 1
      [⟨S4x2000, transpose S4x2000 [1, 0] (m ((c.tc : Thread nD τ).loc main_arg3)) transposes_S2000x4_S4x2000_1_0⟩,
       ⟨S4x48, broadcastInDim S4x48 ![0, 1] bcast_S4x1_S4x48_0_1
          (fun i => FloatOps.ofBits (F := Ideal) .f32 (lit0 (S4x1.rowMajor i)))⟩]
      concatenates_S4x2000_S4x48_S4x2048_d1 := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

/-! ## The layout operations read at explicit coordinates -/

section Reads
variable {α : Type}

/-- A rank-2 array padded at the high end only, read inside the operand, is the operand there. -/
theorem pad_hi_apply {R C R' C' : Nat} (hi : Fin 2 → Nat)
    (x : (⟨2, ![R, C]⟩ : Shape).Idx → α) {u : Shape} (v : u.Idx → α)
    (h : (⟨2, ![R, C]⟩ : Shape).Pads ![0, 0] hi ![0, 0] ⟨2, ![R', C']⟩) (hu : 0 < u.numel)
    (r : Fin R') (k : Fin C') (hr : r.val < R) (hk : k.val < C) :
    pad (⟨2, ![R', C']⟩ : Shape) ![0, 0] hi ![0, 0] x v h hu (ix2 r k) = x (ix2 ⟨r.val, hr⟩ ⟨k.val, hk⟩) :=
  pad_apply_of_inside _ _ _ x v h hu _ _ (fun a => by
    match a with
    | ⟨0, _⟩ => show r.val = 0 + r.val * (0 + 1); omega
    | ⟨1, _⟩ => show k.val = 0 + k.val * (0 + 1); omega)

/-- A vector laid along the columns of a one-row matrix. -/
theorem bcast_row_apply {n : Nat} (h : (⟨1, ![n]⟩ : Shape).BroadcastsInDim ⟨2, ![1, n]⟩ ![1])
    (x : (⟨1, ![n]⟩ : Shape).Idx → α) (z : Fin 1) (t : Fin n) :
    broadcastInDim (⟨2, ![1, n]⟩ : Shape) ![1] h x (ix2 z t) = x (ix1 t) :=
  broadcastInDim_apply _ h x _ _ (fun a => by
    match a with
    | ⟨0, _⟩ =>
      show t.val = if n = 1 then 0 else t.val
      split
      · have := t.isLt; omega
      · rfl)

/-- A vector laid along the rows of a one-column matrix. -/
theorem bcast_col_apply {n : Nat} (h : (⟨1, ![n]⟩ : Shape).BroadcastsInDim ⟨2, ![n, 1]⟩ ![0])
    (x : (⟨1, ![n]⟩ : Shape).Idx → α) (r : Fin n) (z : Fin 1) :
    broadcastInDim (⟨2, ![n, 1]⟩ : Shape) ![0] h x (ix2 r z) = x (ix1 r) :=
  broadcastInDim_apply _ h x _ _ (fun a => by
    match a with
    | ⟨0, _⟩ =>
      show r.val = if n = 1 then 0 else r.val
      split
      · have := r.isLt; omega
      · rfl)

/-- A one-row matrix repeated down the rows. -/
theorem bcast_rows_apply {R n : Nat} (h : (⟨2, ![1, n]⟩ : Shape).BroadcastsInDim ⟨2, ![R, n]⟩ ![0, 1])
    (x : (⟨2, ![1, n]⟩ : Shape).Idx → α) (r : Fin R) (t : Fin n) :
    broadcastInDim (⟨2, ![R, n]⟩ : Shape) ![0, 1] h x (ix2 r t) = x (ix2 0 t) :=
  broadcastInDim_apply _ h x _ _ (fun a => by
    match a with
    | ⟨0, _⟩ => show (0 : Nat) = if 1 = 1 then 0 else r.val; rfl
    | ⟨1, _⟩ =>
      show t.val = if n = 1 then 0 else t.val
      split
      · have := t.isLt; omega
      · rfl)

/-- A one-column matrix repeated along the columns. -/
theorem bcast_cols_apply {R n : Nat} (h : (⟨2, ![R, 1]⟩ : Shape).BroadcastsInDim ⟨2, ![R, n]⟩ ![0, 1])
    (x : (⟨2, ![R, 1]⟩ : Shape).Idx → α) (r : Fin R) (t : Fin n) :
    broadcastInDim (⟨2, ![R, n]⟩ : Shape) ![0, 1] h x (ix2 r t) = x (ix2 r 0) :=
  broadcastInDim_apply _ h x _ _ (fun a => by
    match a with
    | ⟨0, _⟩ =>
      show r.val = if R = 1 then 0 else r.val
      split
      · have := r.isLt; omega
      · rfl
    | ⟨1, _⟩ => show (0 : Nat) = if 1 = 1 then 0 else t.val; rfl)

/-- The transpose of a matrix read at (k, t) is the matrix at (t, k). -/
theorem transpose2_apply {R C : Nat} (h : (⟨2, ![R, C]⟩ : Shape).Transposes [1, 0] ⟨2, ![C, R]⟩)
    (x : (⟨2, ![R, C]⟩ : Shape).Idx → α) (k : Fin C) (t : Fin R) :
    transpose (⟨2, ![C, R]⟩ : Shape) [1, 0] x h (ix2 k t) = x (ix2 t k) :=
  transpose_apply _ x h _ _ (fun b => by
    match b with
    | ⟨0, _⟩ => rfl
    | ⟨1, _⟩ => rfl)

/-- Two matrices joined along the columns, read at a column of the first. -/
theorem concat_cols_left {R C₁ C₂ C : Nat} (h : Shape.Concatenates [(⟨2, ![R, C₁]⟩ : Shape), ⟨2, ![R, C₂]⟩] ⟨2, ![R, C]⟩ 1)
    (x₁ : (⟨2, ![R, C₁]⟩ : Shape).Idx → α) (x₂ : (⟨2, ![R, C₂]⟩ : Shape).Idx → α)
    (k : Fin R) (t : Fin C) (ht : t.val < C₁) :
    concatenate (⟨2, ![R, C]⟩ : Shape) 1 [⟨⟨2, ![R, C₁]⟩, x₁⟩, ⟨⟨2, ![R, C₂]⟩, x₂⟩] h (ix2 k t) = x₁ (ix2 k ⟨t.val, ht⟩) :=
  concatenate_pair_apply_left 1 x₁ x₂ h _ rfl _ (fun b => by
    match b with
    | ⟨0, _⟩ => rfl
    | ⟨1, _⟩ => rfl)

end Reads

/-! ## Words -/

section Words

/-- A one-bit comparison of two words, converted to a float, is 1 where the words agree and 0 elsewhere. -/
theorem uitofp_cmpi_eq (x y : BitVec 32) :
    (((IntOp.cmpi .eq x y).toNat : ℝ) : EReal) = if x = y then 1 else 0 := by
  by_cases h : x = y
  · rw [if_pos h, StableHlo.Predicate.cmpi_eq_iff.2 h]
    show (((1 : ℕ) : ℝ) : EReal) = 1
    rw [Nat.cast_one, EReal.coe_one]
  · rw [if_neg h, eq_zero_of_ne_one (fun h' => h (StableHlo.Predicate.cmpi_eq_iff.1 h'))]
    show (((0 : ℕ) : ℝ) : EReal) = 0
    rw [Nat.cast_zero, EReal.coe_zero]

/-- A word that reads as a class in [0, 91) equals the word of class c exactly when c is the class it selects. -/
theorem id_eq_iff (id : BitVec 32) (h0 : 0 ≤ id.toInt) (h1 : id.toInt < 91) (c : Fin 91) :
    id = BitVec.ofNat 32 c.val ↔ c = clsOf id := by
  have hlt := id.isLt
  have hc := c.isLt
  have hn : id.toInt = (id.toNat : Int) := by
    have hcond := BitVec.toInt_eq_toNat_cond id
    by_cases hh : 2 * id.toNat < 2 ^ 32
    · rw [hcond, if_pos hh]
    · rw [hcond, if_neg hh] at h0; omega
  constructor
  · intro h
    apply Fin.ext
    show c.val = min id.toInt.toNat 90
    have : id.toNat = c.val := by rw [h, BitVec.toNat_ofNat]; exact Nat.mod_eq_of_lt (by omega)
    omega
  · intro h
    have hv : c.val = min id.toInt.toNat 90 := congrArg Fin.val h
    apply BitVec.eq_of_toNat_eq
    rw [BitVec.toNat_ofNat, Nat.mod_eq_of_lt (by omega)]
    omega

end Words

/-! ## The four arrays read at an index -/

/-- A padded logits row below 16000 is the flattened logits row. -/
theorem v13_apply (c : Dev nD) (r : Fin 16128) (k : Fin 91) (hr : r.val < 16000) :
    (V m c main_v13 : S16128x91.Idx → EReal) (ix2 r k)
      = shapeCast S16000x91 (m ((c.tc : Thread nD τ).loc main_arg0)) shapeCasts_S16x1000x91_S16000x91 (ix2 ⟨r.val, hr⟩ k) :=
  (congrFun (e13 m c) (ix2 r k)).trans (pad_hi_apply _ _ _ _ _ r k hr k.isLt)

/-- A padded box row below 16000 is the flattened box row. -/
theorem v14_apply (c : Dev nD) (r : Fin 16128) (k : Fin 4) (hr : r.val < 16000) :
    (V m c main_v14 : S16128x4.Idx → EReal) (ix2 r k)
      = shapeCast S16000x4 (m ((c.tc : Thread nD τ).loc main_arg1)) shapeCasts_S16x1000x4_S16000x4 (ix2 ⟨r.val, hr⟩ k) :=
  (congrFun (e14 m c) (ix2 r k)).trans (pad_hi_apply _ _ _ _ _ r k hr k.isLt)

/-- Column t < 2000 of the selection table is 1 at the class whose word is the target id, 0 elsewhere. -/
theorem v10_apply (c : Dev nD) (cl : Fin 91) (t : Fin 2048) (ht : t.val < 2000) :
    (V m c main_v10 : S91x2048.Idx → EReal) (ix2 cl t)
      = (if m ((c.tc : Thread nD τ).loc main_arg2) (ix1 (⟨t.val, ht⟩ : Fin 2000)) = BitVec.ofNat 32 cl.val then 1 else 0 : EReal) := by
  refine (congrFun (e10 m c) (ix2 cl t)).trans ((pad_hi_apply _ _ _ _ _ cl t cl.isLt ht).trans ?_)
  have hA : broadcastInDim S91x2000 ![0, 1] bcast_S1x2000_S91x2000_0_1
      (broadcastInDim S1x2000 ![1] bcast_S2000_S1x2000_1 (m ((c.tc : Thread nD τ).loc main_arg2)))
      (ix2 (⟨cl.val, cl.isLt⟩ : Fin 91) (⟨t.val, ht⟩ : Fin 2000))
      = m ((c.tc : Thread nD τ).loc main_arg2) (ix1 (⟨t.val, ht⟩ : Fin 2000)) :=
    (bcast_rows_apply _ _ _ _).trans (bcast_row_apply _ _ _ _)
  have hB : broadcastInDim S91x2000 ![0, 1] bcast_S91x1_S91x2000_0_1
      (broadcastInDim S91x1 ![0] bcast_S91_S91x1_0 (iotaInDim S91 32 0))
      (ix2 (⟨cl.val, cl.isLt⟩ : Fin 91) (⟨t.val, ht⟩ : Fin 2000))
      = BitVec.ofNat 32 cl.val :=
    (bcast_cols_apply _ _ _ _).trans (bcast_col_apply _ _ _ _)
  show (((IntOp.cmpi .eq _ _).toNat : ℝ) : EReal) = _
  rw [uitofp_cmpi_eq, hA, hB]

/-- Column t < 2000 of the transposed, padded target boxes is target box t. -/
theorem v12_apply (c : Dev nD) (k : Fin 4) (t : Fin 2048) (ht : t.val < 2000) :
    (V m c main_v12 : S4x2048.Idx → EReal) (ix2 k t)
      = m ((c.tc : Thread nD τ).loc main_arg3) (ix2 (⟨t.val, ht⟩ : Fin 2000) k) :=
  (congrFun (e12 m c) (ix2 k t)).trans ((concat_cols_left _ _ _ k t ht).trans (transpose2_apply _ _ k ⟨t.val, ht⟩))

/-! ## The tiled cost on the rows and columns that are not padding -/

theorem GP_eq_G2_at (c : Dev nD)
    (hids : ∀ t : Fin 2000, 0 ≤ (m ((c.tc : Thread nD τ).loc main_arg2) (ix1 t)).toInt
      ∧ (m ((c.tc : Thread nD τ).loc main_arg2) (ix1 t)).toInt < 91)
    (r : Fin 16128) (t : Fin 2048) (h0 : r.val < 16000) (h1 : t.val < 2000) :
    GP (V m c main_v13) (V m c main_v14) (V m c main_v10) (V m c main_v12) (ix2 r t)
      = G2 (shapeCast S16000x91 (m ((c.tc : Thread nD τ).loc main_arg0)) shapeCasts_S16x1000x91_S16000x91)
          (shapeCast S16000x4 (m ((c.tc : Thread nD τ).loc main_arg1)) shapeCasts_S16x1000x4_S16000x4)
          (m ((c.tc : Thread nD τ).loc main_arg2)) (m ((c.tc : Thread nD τ).loc main_arg3))
          (ix2 ⟨r.val, h0⟩ ⟨t.val, h1⟩) := by
  have hcls : (∑ cl : Fin 91, focal (Ideal.logistic ((V m c main_v13 : S16128x91.Idx → EReal) (ix2 r cl)))
        * (V m c main_v10 : S91x2048.Idx → EReal) (ix2 cl t))
      = focal (Ideal.logistic (shapeCast S16000x91 (m ((c.tc : Thread nD τ).loc main_arg0)) shapeCasts_S16x1000x91_S16000x91
          (ix2 (⟨r.val, h0⟩ : Fin 16000) (clsOf (m ((c.tc : Thread nD τ).loc main_arg2) (ix1 (⟨t.val, h1⟩ : Fin 2000))))))) := by
    rw [← onehot_sum (fun cl => focal (Ideal.logistic (shapeCast S16000x91 (m ((c.tc : Thread nD τ).loc main_arg0))
      shapeCasts_S16x1000x91_S16000x91 (ix2 (⟨r.val, h0⟩ : Fin 16000) cl))))
      (clsOf (m ((c.tc : Thread nD τ).loc main_arg2) (ix1 (⟨t.val, h1⟩ : Fin 2000))))]
    refine Finset.sum_congr rfl (fun cl _ => ?_)
    rw [v13_apply m c r cl h0, v10_apply m c cl t h1]
    exact congrArg _ (if_congr (id_eq_iff _ (hids ⟨t.val, h1⟩).1 (hids ⟨t.val, h1⟩).2 cl) rfl rfl)
  have hbx : (fun k : Fin 4 => (V m c main_v14 : S16128x4.Idx → EReal) (ix2 r k))
      = fun k => shapeCast S16000x4 (m ((c.tc : Thread nD τ).loc main_arg1)) shapeCasts_S16x1000x4_S16000x4
          (ix2 (⟨r.val, h0⟩ : Fin 16000) k) :=
    funext fun k => v14_apply m c r k h0
  have htg : (fun k : Fin 4 => (V m c main_v12 : S4x2048.Idx → EReal) (ix2 k t))
      = fun k => m ((c.tc : Thread nD τ).loc main_arg3) (ix2 (⟨t.val, h1⟩ : Fin 2000) k) :=
    funext fun k => v12_apply m c k t h1
  exact congr (congr (congrArg cost hcls) hbx) htg

/-- On a row below 16000 and a column below 2000, with every target id a class in `[0, 91)`, the tiled program's cost over
    the arrays the region finds is the cost `G2` of the flattened arguments: the padded rows and columns are not read,
    and column `t` of the selection table is `1` at class `id_t` only, so the row-times-column product picks that class. -/
theorem GP_eq_G2 (c : Dev nD)
    (hids : ∀ t : Fin 2000, 0 ≤ (m ((c.tc : Thread nD τ).loc main_arg2) (ix1 t)).toInt
      ∧ (m ((c.tc : Thread nD τ).loc main_arg2) (ix1 t)).toInt < 91)
    (j : S16128x2048.Idx) (h0 : (j 0).val < 16000) (h1 : (j 1).val < 2000) :
    GP (V m c main_v13) (V m c main_v14) (V m c main_v10) (V m c main_v12) j
      = G2 (shapeCast S16000x91 (m ((c.tc : Thread nD τ).loc main_arg0)) shapeCasts_S16x1000x91_S16000x91)
          (shapeCast S16000x4 (m ((c.tc : Thread nD τ).loc main_arg1)) shapeCasts_S16x1000x4_S16000x4)
          (m ((c.tc : Thread nD τ).loc main_arg2)) (m ((c.tc : Thread nD τ).loc main_arg3))
          (ix2 ⟨(j 0).val, h0⟩ ⟨(j 1).val, h1⟩) :=
  (congrArg (GP (V m c main_v13) (V m c main_v14) (V m c main_v10) (V m c main_v12)) (eq_ix2 j)).trans
    (GP_eq_G2_at m c hids (j 0) (j 1) h0 h1)

end Cert.KernelIdeal.HostIn

end
-- ==== Proof.Final.lean ====
/-
  The tiled program's run, read: its result is the cost `G2` of the flattened arguments, re-laid as [16, 1000, 2000].

  A grid point t holds query rows [256 t, 256 t + 256) and writes back its 256 × 2048 block; by the tile lemma the block is, entry by
  entry, the tiled cost `GP` of the arrays the region finds, so (the 63 blocks tile the padded result) the padded result IS `GP` of
  them; the closing slice drops the padded rows and columns, where `GP` is `G2`.
-/
import proofs.«411175_j78245714198741_3_alg».proof.Proof.Gen.KernelIdeal.Frame
import proofs.«411175_j78245714198741_3_alg».proof.Proof.Tile
import proofs.«411175_j78245714198741_3_alg».proof.Proof.TilePay
import proofs.«411175_j78245714198741_3_alg».proof.Proof.HostIn
import proofs.«411175_j78245714198741_3_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Final

open Cert.KernelIdeal Cert.KernelIdeal.Gen Cert.KernelIdeal.Tile Cert.KernelIdeal.HostIn Cert.MatchCost
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The tiled cost over the arrays the region finds. -/
abbrev GPm (c : Dev nD) : S16128x2048.Idx → EReal :=
  GP (V m c main_v13) (V m c main_v14) (V m c main_v10) (V m c main_v12)

/-- The printed index maps over the grid: the row windows move with the point, the table and the targets stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Point `t`'s four input blocks, at their literal shapes. -/
abbrev blk0 (c : Dev nD) (t : Fin cfg0.N) : Vec Ideal S256x91 .f32 := iblk m c 0 t
abbrev blk1 (c : Dev nD) (t : Fin cfg0.N) : Vec Ideal S256x4 .f32 := iblk m c 1 t
abbrev blk2 (c : Dev nD) (t : Fin cfg0.N) : Vec Ideal S91x2048 .f32 := iblk m c 2 t
abbrev blk3 (c : Dev nD) (t : Fin cfg0.N) : Vec Ideal S4x2048 .f32 := iblk m c 3 t

/-- Row `r` of point `t`'s logits block is row `256 t + r` of the padded logits. -/
theorem iblk0_apply (c : Dev nD) (t : Fin cfg0.N) (r : Fin 256) (k : Fin 91) (i : S16128x91.Idx)
    (h0 : (i 0).val = 256 * t.val + r.val) (h1 : (i 1).val = k.val) :
    blk0 m c t (ix2 r k) = V m c main_v13 i := by
  obtain ⟨e0, e1, -⟩ := idx_facts t
  unfold blk0 iblk
  rw [View.read_apply]
  show V m c main_v13 (((cfg0.win 0).blk t).view.emb (ix2 r k)) = V m c main_v13 i
  congr 1
  funext a; apply Fin.ext
  match a with
  | ⟨0, _⟩ => show win0_0.index t (0 : Fin 2) * 256 + 1 * r.val = (i 0).val; omega
  | ⟨1, _⟩ => show win0_0.index t (1 : Fin 2) * 91 + 1 * k.val = (i 1).val; omega

/-- Row `r` of point `t`'s box block is row `256 t + r` of the padded boxes. -/
theorem iblk1_apply (c : Dev nD) (t : Fin cfg0.N) (r : Fin 256) (k : Fin 4) (i : S16128x4.Idx)
    (h0 : (i 0).val = 256 * t.val + r.val) (h1 : (i 1).val = k.val) :
    blk1 m c t (ix2 r k) = V m c main_v14 i := by
  obtain ⟨-, -, e0, e1, -⟩ := idx_facts t
  unfold blk1 iblk
  rw [View.read_apply]
  show V m c main_v14 (((cfg0.win 1).blk t).view.emb (ix2 r k)) = V m c main_v14 i
  congr 1
  funext a; apply Fin.ext
  match a with
  | ⟨0, _⟩ => show win0_1.index t (0 : Fin 2) * 256 + 1 * r.val = (i 0).val; omega
  | ⟨1, _⟩ => show win0_1.index t (1 : Fin 2) * 4 + 1 * k.val = (i 1).val; omega

/-- Trip `k`'s slice of the selection table, which every point holds whole: columns `[512 k, 512 k + 512)`. -/
theorem tab_apply (c : Dev nD) (t : Fin cfg0.N) (k : Fin k0_t1_loop.trips) (cl : Fin 91) (j : Fin 512) (i : S91x2048.Idx)
    (h0 : (i 0).val = cl.val) (h1 : (i 1).val = 512 * k.val + j.val) :
    View.ld (blk2 m c t) (Rect.unit (s := S91x2048) (k0_off1 k) S91x512.size (k0_off1_inb k)) (ix2 cl j)
      = V m c main_v10 i := by
  obtain ⟨-, -, -, -, e0, e1, -⟩ := idx_facts t
  have o0 : k0_off1 k 0 = 0 := by rw [k0_off1_eq]; rfl
  have o1 : k0_off1 k 1 = 512 * k.val := by rw [k0_off1_eq]; rfl
  show blk2 m c t ((Rect.unit (s := S91x2048) (k0_off1 k) S91x512.size (k0_off1_inb k)).idx (ix2 cl j)) = _
  unfold blk2 iblk
  rw [View.read_apply]
  show V m c main_v10 (((cfg0.win 2).blk t).view.emb ((Rect.unit (s := S91x2048) (k0_off1 k) S91x512.size (k0_off1_inb k)).idx (ix2 cl j))) = V m c main_v10 i
  congr 1
  funext a; apply Fin.ext
  match a with
  | ⟨0, _⟩ => show win0_2.index t (0 : Fin 2) * 91 + 1 * (k0_off1 k 0 + 1 * cl.val) = (i 0).val; omega
  | ⟨1, _⟩ => show win0_2.index t (1 : Fin 2) * 2048 + 1 * (k0_off1 k 1 + 1 * j.val) = (i 1).val; omega

/-- Trip `k`'s slice of the transposed target boxes, likewise. -/
theorem tgt_apply (c : Dev nD) (t : Fin cfg0.N) (k : Fin k0_t1_loop.trips) (cl : Fin 4) (j : Fin 512) (i : S4x2048.Idx)
    (h0 : (i 0).val = cl.val) (h1 : (i 1).val = 512 * k.val + j.val) :
    View.ld (blk3 m c t) (Rect.unit (s := S4x2048) (k0_off2 k) S4x512.size (k0_off2_inb k)) (ix2 cl j)
      = V m c main_v12 i := by
  obtain ⟨-, -, -, -, -, -, e0, e1, -⟩ := idx_facts t
  have o0 : k0_off2 k 0 = 0 := by rw [k0_off2_eq]; rfl
  have o1 : k0_off2 k 1 = 512 * k.val := by rw [k0_off2_eq]; rfl
  show blk3 m c t ((Rect.unit (s := S4x2048) (k0_off2 k) S4x512.size (k0_off2_inb k)).idx (ix2 cl j)) = _
  unfold blk3 iblk
  rw [View.read_apply]
  show V m c main_v12 (((cfg0.win 3).blk t).view.emb ((Rect.unit (s := S4x2048) (k0_off2 k) S4x512.size (k0_off2_inb k)).idx (ix2 cl j))) = V m c main_v12 i
  congr 1
  funext a; apply Fin.ext
  match a with
  | ⟨0, _⟩ => show win0_3.index t (0 : Fin 2) * 4 + 1 * (k0_off2 k 0 + 1 * cl.val) = (i 0).val; omega
  | ⟨1, _⟩ => show win0_3.index t (1 : Fin 2) * 2048 + 1 * (k0_off2 k 1 + 1 * j.val) = (i 1).val; omega

/-- Trip `k`'s tile of point `t` at local entry `(r, j)` is the tiled cost at row `256 t + r`, column `512 k + j`. -/
theorem tileAt_eq (c : Dev nD) (t : Fin cfg0.N) (k : Fin k0_t1_loop.trips) (r : Fin 256) (j : Fin 512) (i : S16128x2048.Idx)
    (h0 : (i 0).val = 256 * t.val + r.val) (h1 : (i 1).val = 512 * k.val + j.val) :
    tileAt (blk0 m c t) (blk1 m c t) (blk2 m c t) (blk3 m c t) k r j = GPm m c i := by
  unfold tileAt
  rw [tilePay_apply]
  have hA : (∑ cl : Fin 91, focal (Ideal.logistic (blk0 m c t (ix2 r cl)))
        * View.ld (blk2 m c t) (Rect.unit (s := S91x2048) (k0_off1 k) S91x512.size (k0_off1_inb k)) (ix2 cl j))
      = ∑ cl : Fin 91, focal (Ideal.logistic (V m c main_v13 (ix2 (i 0 : Fin 16128) cl))) * V m c main_v10 (ix2 cl (i 1 : Fin 2048)) :=
    Finset.sum_congr rfl fun cl _ => by
      rw [iblk0_apply m c t r cl (ix2 (i 0 : Fin 16128) cl) h0 rfl, tab_apply m c t k cl j (ix2 cl (i 1 : Fin 2048)) rfl h1]
  have hB : (fun kk : Fin 4 => blk1 m c t (ix2 r kk)) = fun kk : Fin 4 => V m c main_v14 (ix2 (i 0 : Fin 16128) kk) :=
    funext fun kk => iblk1_apply m c t r kk (ix2 (i 0 : Fin 16128) kk) h0 rfl
  have hC : (fun kk : Fin 4 => View.ld (blk3 m c t) (Rect.unit (s := S4x2048) (k0_off2 k) S4x512.size (k0_off2_inb k)) (ix2 kk j))
      = fun kk : Fin 4 => V m c main_v12 (ix2 kk (i 1 : Fin 2048)) :=
    funext fun kk => tgt_apply m c t k kk j (ix2 kk (i 1 : Fin 2048)) rfl h1
  exact congr (congr (congrArg cost hA) hB) hC

/-- WHAT POINT `t` WRITES BACK is block `t` of the tiled cost over the arrays the region finds. -/
theorem flushed_eq (c : Dev nD) (t : Fin cfg0.N) :
    (dats m 0 c).flushed 4 t = ((cfg0.win 4).blk t).view.read (Elt Ideal) (GPm m c) := by
  show (cfg0.win 4).cut (grid0.coords t) ((dats m 0 c).after 4 t) = _
  rw [after0_4]
  unfold outsAt0
  rw [out_tile]
  obtain ⟨-, -, -, -, -, -, -, -, e0, e1⟩ := idx_facts t
  funext y
  have hy0 : (y 0).val < 256 := (y 0).isLt
  have hy1 : (y 1).val < 2048 := (y 1).isLt
  rw [View.read_apply]
  show tileFn (blk0 m c t) (blk1 m c t) (blk2 m c t) (blk3 m c t) y = GPm m c (((cfg0.win 4).blk t).view.emb y)
  unfold tileFn
  refine tileAt_eq m c t _ _ _ _ ?_ ?_
  · show win0_4.index t (0 : Fin 2) * 256 + 1 * (y 0).val = 256 * t.val + (y 0).val; omega
  · show win0_4.index t (1 : Fin 2) * 2048 + 1 * (y 1).val = 512 * ((y 1).val / 512) + (y 1).val % 512; omega

/-- An index of the padded result lies in point `t`'s block iff its row does. -/
theorem mem_blk (t : Fin cfg0.N) (i : S16128x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v15).slice (win0_4.rect t)).set ↔ _
  rw [View.set_slice_whole, Rect.mem_set_unit]
  exact Iff.rfl

/-- THE PADDED RESULT after the run is the tiled cost: the 63 row blocks tile it. -/
theorem arr_eq (c : Dev nD) : (dats m 0 c).arrAt 4 cfg0.N = GPm m c :=
  (dats m 0 c).arrAt_eq_of_cover 4 (GPm m c) (fun t _ => flushed_eq m c t) fun i => by
    have hi0 : (i 0).val < 16128 := (i 0).isLt
    have hi1 : (i 1).val < 2048 := (i 1).isLt
    have hN : cfg0.N = 63 := N_0
    refine ⟨⟨(i 0).val / 256, by rw [hN]; omega⟩, flush0_4 _, ?_⟩
    obtain ⟨-, -, -, -, -, -, -, -, e0, e1⟩ := idx_facts ⟨(i 0).val / 256, by rw [hN]; omega⟩
    rw [mem_blk]
    intro a
    match a with
    | ⟨0, _⟩ => show win0_4.index _ (0 : Fin 2) * 256 ≤ (i 0).val ∧ (i 0).val < win0_4.index _ (0 : Fin 2) * 256 + 256; rw [e0]; dsimp only; omega
    | ⟨1, _⟩ => show win0_4.index _ (1 : Fin 2) * 2048 ≤ (i 1).val ∧ (i 1).val < win0_4.index _ (1 : Fin 2) * 2048 + 2048; rw [e1]; omega

/-- The result buffer after the closing slice and reshape, from the padded result. -/
theorem tail_eq (c : Dev nD) :
    Pipeline.afterTail₀ cfgs (dats m) 0 (V0 m) [hostOps1] c main_v17
      = shapeCast S16x1000x2000 (extractStridedSlice S16000x2000 ![0, 0] ((dats m 0 c).arrAt 4 cfg0.N) slices_S16128x2048_S16000x2000_0_0) shapeCasts_S16000x2000_S16x1000x2000 := by
  unfold Pipeline.afterTail₀
  show StableHlo.after hostOps1 _ (Proc.devRef .tc main_v17) = _
  after_results
  have hw : Pipeline.withArrays (cfgs 0).spec c (V0 m c) (fun w => (dats m 0 c).arrAt w (cfgs 0).N) (Proc.tc.devRef main_v15)
      = (dats m 0 c).arrAt 4 cfg0.N :=
    Pipeline.withArrays_arr spec0 launch0.win.arr_inj c (V0 m c) (fun w => (dats m 0 c).arrAt w (cfgs 0).N) 4
  rw [hw]
  rfl

/-- Below row 16000 and column 2000 the tiled cost is the cost: the closing slice of the padded result. -/
theorem slice_eq (c : Dev nD)
    (hids : ∀ t : Fin 2000, 0 ≤ (m ((c.tc : Thread nD τ).loc main_arg2) (ix1 t)).toInt
      ∧ (m ((c.tc : Thread nD τ).loc main_arg2) (ix1 t)).toInt < 91) :
    extractStridedSlice S16000x2000 ![0, 0] (GP (V m c main_v13) (V m c main_v14) (V m c main_v10) (V m c main_v12)) slices_S16128x2048_S16000x2000_0_0
      = G2 (shapeCast S16000x91 (m ((c.tc : Thread nD τ).loc main_arg0)) shapeCasts_S16x1000x91_S16000x91)
          (shapeCast S16000x4 (m ((c.tc : Thread nD τ).loc main_arg1)) shapeCasts_S16x1000x4_S16000x4)
          (m ((c.tc : Thread nD τ).loc main_arg2)) (m ((c.tc : Thread nD τ).loc main_arg3)) := by
  funext j
  have h0 : (j 0).val < 16000 := (j 0).isLt
  have h1 : (j 1).val < 2000 := (j 1).isLt
  rw [extractStridedSlice_apply ![0, 0] _ slices_S16128x2048_S16000x2000_0_0 j
    (ix2 (⟨(j 0).val, by omega⟩ : Fin 16128) (⟨(j 1).val, by omega⟩ : Fin 2048))
    (fun a => by match a with
      | ⟨0, _⟩ => show (j 0).val = 0 + (j 0).val; omega
      | ⟨1, _⟩ => show (j 1).val = 0 + (j 1).val; omega)]
  rw [GP_eq_G2 m c hids _ h0 h1]
  exact congrArg _ (eq_ix2 j).symm

/-- THE RUN, READ: every weakly fair execution of the tiled program ends with its result at the cost `G2` of the flattened
    arguments, re-laid as [16, 1000, 2000], and the arguments unchanged — when every target id is a class in `[0, 91)`. -/
theorem run
    (hids : ∀ (c : Dev nD) (t : Fin 2000), 0 ≤ (m ((c.tc : Thread nD τ).loc main_arg2) (ix1 t)).toInt
      ∧ (m ((c.tc : Thread nD τ).loc main_arg2) (ix1 t)).toInt < 91) :
    θ_run defs (onTc (τ := τ) (main (F := Ideal))) ⟨m, fun _ => 0, ρ⟩ fun r => ∀ c : Dev nD,
      r.2.mem ((c.tc : Thread nD τ).loc main_v17)
        = shapeCast S16x1000x2000
            (G2 (shapeCast S16000x91 (m ((c.tc : Thread nD τ).loc main_arg0)) shapeCasts_S16x1000x91_S16000x91)
              (shapeCast S16000x4 (m ((c.tc : Thread nD τ).loc main_arg1)) shapeCasts_S16x1000x4_S16000x4)
              (m ((c.tc : Thread nD τ).loc main_arg2)) (m ((c.tc : Thread nD τ).loc main_arg3)))
            shapeCasts_S16000x2000_S16x1000x2000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(((h c).2 main_v17 (Pipeline.mem_restRefs_of main_v17 (by decide) (by decide))).trans (tail_eq m c)).trans
        (by rw [arr_eq, slice_eq m c (hids c)]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.lean ====
/-
  A bipartite-matching cost matrix: 16 × 1000 predictions (91 class logits and a box each) against 2000 targets (a class
  id and a box each). Entry (b, q, t) is
      1 · L1(box_{b,q}, box_t) + 1 · focal(σ(logit[b, q, id_t])) + 1 · (0 − GIoU(box_{b,q}, box_t)).

  The tiled program computes the focal cost of EVERY class of a prediction once and picks the target's class by multiplying
  that row with a 0/1 selection table built from the ids (`id_t = c`); the reference gathers the probability at `id_t` first
  and applies the focal cost after. The two agree exactly when every id is a class in [0, 91): then column t of the table
  is 1 at class id_t only, and a row times such a column is the row's entry there (over the extended reals 0 · x = 0 for
  every x, so no finiteness is needed). Outside that range they differ — the reference's gather wraps a negative id and
  clamps a large one, the table's column is all zeros — which is why the precondition bounds the ids.
  The remaining differences are spellings: σ as one operation against 1 / (1 + exp (−x)); squares as products against powers
  2.0 (equal on the reals, and σ is always real); a negation as 0 − x; the L1 sum as a chain against a sum from 0.

  The tiled side: a grid point owns 256 query rows and writes its 256 × 2048 block in four column tiles of 512; the four
  pieces tile the block, the 63 blocks tile the padded [16128, 2048] result, and the closing slice drops the padding
  (`Final.run`). The reference side: its operations read at an index one by one (`RefValue.ref_eq`). Both results are the same
  function `G2` of the flattened arguments, re-laid as [16, 1000, 2000].
-/
import proofs.«411175_j78245714198741_3_alg».proof.Defs
import proofs.«411175_j78245714198741_3_alg».proof.Proof.Gen.Kernel
import proofs.«411175_j78245714198741_3_alg».proof.Proof.Gen.Kernel.Skeleton
import proofs.«411175_j78245714198741_3_alg».proof.Proof.Gen.Kernel.Loops
import proofs.«411175_j78245714198741_3_alg».proof.Proof.Gen.Kernel.Launch
import proofs.«411175_j78245714198741_3_alg».proof.Proof.Gen.Kernel.Points
import proofs.«411175_j78245714198741_3_alg».proof.Proof.Gen.Kernel.Frame
import proofs.«411175_j78245714198741_3_alg».proof.Proof.Gen.KernelIdeal
import proofs.«411175_j78245714198741_3_alg».proof.Proof.Gen.KernelIdeal.Skeleton
import proofs.«411175_j78245714198741_3_alg».proof.Proof.Gen.KernelIdeal.Loops
import proofs.«411175_j78245714198741_3_alg».proof.Proof.Gen.KernelIdeal.Launch
import proofs.«411175_j78245714198741_3_alg».proof.Proof.Gen.KernelIdeal.Points
import proofs.«411175_j78245714198741_3_alg».proof.Proof.Gen.KernelIdeal.Frame
import proofs.«411175_j78245714198741_3_alg».proof.Proof.Gen.ReferenceIdeal
import proofs.«411175_j78245714198741_3_alg».proof.Proof.Gen.Pre_finite_inputs
import proofs.«411175_j78245714198741_3_alg».proof.Proof.Gen.ReferenceIdeal.Run
import proofs.«411175_j78245714198741_3_alg».proof.Proof.Gen.ReferenceIdeal.Read
import proofs.«411175_j78245714198741_3_alg».proof.Proof.PreIds
import proofs.«411175_j78245714198741_3_alg».proof.Proof.RefValue
import proofs.«411175_j78245714198741_3_alg».proof.Proof.Final
import Idealize.ShloMosaic.Adequacy
import Idealize.ShloMosaic.Init

noncomputable section

namespace Cert.Proof

open Idealize.ShloMosaic Idealize.ShloMosaic.TcCoe Idealize.SL.Sem Idealize.ShloMosaic.ValueIdx

/-- The tiled program, read at words, runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: it runs, and no operation writes an argument. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the cost `G2` of the flattened arguments, re-laid as [16, 1000, 2000]. -/
theorem algebraic : Cert.algebraic_KernelIdeal_ReferenceIdeal := by
  intro m ρ m' ρ' hpre hagree
  -- the precondition bounds every target id
  have hids : ∀ (c : Dev Cert.KernelIdeal.nD) (t : Fin 2000),
      0 ≤ (m ((c.tc : Thread Cert.KernelIdeal.nD Cert.KernelIdeal.τ).loc Cert.KernelIdeal.main_arg2) (ix1 t)).toInt
      ∧ (m ((c.tc : Thread Cert.KernelIdeal.nD Cert.KernelIdeal.τ).loc Cert.KernelIdeal.main_arg2) (ix1 t)).toInt < 91 :=
    fun c t => Cert.Pre_finite_inputs.Ids.ids_of_pre _ _ _ _ (hpre c) t
  refine ⟨_, Cert.KernelIdeal.Final.run m ρ hids, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v177_eq, (hagree c).1, (hagree c).2.1, (hagree c).2.2.1, (hagree c).2.2.2]
  unfold Cert.ReferenceIdeal.Read.val_main_v177
  rw [Cert.ReferenceIdeal.RefValue.ref_eq _ _ _ _ (hids c)]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
